-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S513x16384 : Shape := ⟨2, ![513, 16384]⟩
abbrev S16384 : Shape := ⟨1, ![16384]⟩
abbrev S16384x64 : Shape := ⟨2, ![16384, 64]⟩
abbrev S_ : Shape := ⟨0, ![]⟩
abbrev S4096x1 : Shape := ⟨2, ![4096, 1]⟩
abbrev S4096x513 : Shape := ⟨2, ![4096, 513]⟩
abbrev S4096x16384 : Shape := ⟨2, ![4096, 16384]⟩
abbrev S1x16384 : Shape := ⟨2, ![1, 16384]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  reducesTo_S4096_S_d0 : S4096.ReducesTo [0] S_
  bcast_S_S513x16384 : S_.BroadcastsInDim S513x16384 (![] : Fin 0 → Fin S513x16384.rank)
  reducesTo_S513x16384_S_d0_1 : S513x16384.ReducesTo [0, 1] S_
  bcast_S_S16384 : S_.BroadcastsInDim S16384 (![] : Fin 0 → Fin S16384.rank)
  reducesTo_S16384_S_d0 : S16384.ReducesTo [0] S_
  bcast_S_S16384x64 : S_.BroadcastsInDim S16384x64 (![] : Fin 0 → Fin S16384x64.rank)
  reducesTo_S16384x64_S_d0_1 : S16384x64.ReducesTo [0, 1] S_
  bcast_S4096_S4096x1_0 : S4096.BroadcastsInDim S4096x1 (![0] : Fin 1 → Fin S4096x1.rank)
  concatenates_S4096x512_S4096x1_S4096x513_d1 : Shape.Concatenates [S4096x512, S4096x1] S4096x513 1
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  reducesTo_S4096x16384_S4096_d1 : S4096x16384.ReducesTo [1] S4096
  bcast_S4096x1_S4096x16384_0_1 : S4096x1.BroadcastsInDim S4096x16384 (![0, 1] : Fin 2 → Fin S4096x16384.rank)
  bcast_S_S4096x1 : S_.BroadcastsInDim S4096x1 (![] : Fin 0 → Fin S4096x1.rank)
  reducesTo_S4096x1_S_d0_1 : S4096x1.ReducesTo [0, 1] S_
  dot_S4096x513_S513x16384_S4096x16384_1_0_0_1_n_n_wf : DotDims.WF S4096x513 S513x16384 S4096x16384 [1] [0] [0] [1] [] []

variable [Facts]

def dot_S4096x513_S513x16384_S4096x16384_1_0_0_1_n_n : DotDims S4096x513 S513x16384 S4096x16384 where
  lhsContracting := [1]
  rhsContracting := [0]
  lhsNonContracting := [0]
  rhsNonContracting := [1]
  lhsBatch := []
  rhsBatch := []
  wf := dot_S4096x513_S513x16384_S4096x16384_1_0_0_1_n_n_wf
def fn_part3 {F : FTy → Type} [FloatOps F] (main_v28 : IVec S_ 1) (main_v52 : FVec F S4096x1 .f32) (main_v53 : FVec F S4096x1 .f32) : IVec S_ 1 :=
  let main_v54 : IVec S4096x1 1 := cmpf .une main_v52 main_v53
  let main_c_16 : IVec S_ 1 := constantI S_ 1 1#1
  let main_v55 : IVec S_ 1 := (fun x v => Host.reduce IntOp.andi x v reducesTo_S4096x1_S_d0_1 h_S_) main_v54 main_c_16
  let main_v56 : IVec S_ 1 := andi main_v28 main_v55
  main_v56

def fn_part2 {F : FTy → Type} [FloatOps F] (main_arg5 : FVec F S16384 .f32) (main_v28 : IVec S_ 1) (main_v34 : FVec F S4096x16384 .f32) (main_cst_10 : FVec F S_ .f32) : IVec S_ 1 :=
  let main_v35 : FVec F S4096 .f32 := (fun x v => Host.reduce FloatOps.maximumf x v reducesTo_S4096x16384_S4096_d1 h_S_) main_v34 main_cst_10
  let main_cst_11 : FVec F S_ .f32 := constant S_ .f32 0xFF800000#32
  let main_v36 : FVec F S4096 .f32 := broadcastInDim S4096 ![] bcast_S_S4096 main_cst_11
  let main_v37 : FVec F S4096 .f32 := maximumf main_v36 main_v35
  let main_v38 : FVec F S4096x1 .f32 := broadcastInDim S4096x1 ![0] bcast_S4096_S4096x1_0 main_v37
  let main_v39 : FVec F S4096x16384 .f32 := broadcastInDim S4096x16384 ![0, 1] bcast_S4096x1_S4096x16384_0_1 main_v38
  let main_v40 : FVec F S4096x16384 .f32 := subf main_v34 main_v39
  let main_v41 : FVec F S4096x16384 .f32 := Host.exp main_v40
  let main_cst_12 : FVec F S_ .f32 := constant S_ .f32 0x00000000#32
  let main_v42 : FVec F S4096 .f32 := (fun x v => Host.reduceAdd x v reducesTo_S4096x16384_S4096_d1 h_S_) main_v41 main_cst_12
  let main_v43 : FVec F S4096x1 .f32 := broadcastInDim S4096x1 ![0] bcast_S4096_S4096x1_0 main_v42
  let main_v44 : FVec F S4096x16384 .f32 := broadcastInDim S4096x16384 ![0, 1] bcast_S4096x1_S4096x16384_0_1 main_v43
  let main_v45 : FVec F S4096x16384 .f32 := Host.divf main_v41 main_v44
  let main_v46 : FVec F S1x16384 .f32 := broadcastInDim S1x16384 ![1] bcast_S16384_S1x16384_1 main_arg5
  let main_v47 : FVec F S4096x16384 .f32 := broadcastInDim S4096x16384 ![0, 1] bcast_S1x16384_S4096x16384_0_1 main_v46
  let main_v48 : FVec F S4096x16384 .f32 := mulf main_v45 main_v47
  let main_cst_13 : FVec F S_ .f32 := constant S_ .f32 0x00000000#32
  let main_v49 : FVec F S4096 .f32 := (fun x v => Host.reduceAdd x v reducesTo_S4096x16384_S4096_d1 h_S_) main_v48 main_cst_13
  let main_v50 : FVec F S4096x1 .f32 := broadcastInDim S4096x1 ![0] bcast_S4096_S4096x1_0 main_v49
  let main_cst_14 : FVec F S_ .f32 := constant S_ .f32 0x358637BD#32
  let main_v51 : FVec F S4096x1 .f32 := broadcastInDim S4096x1 ![] bcast_S_S4096x1 main_cst_14
  let main_v52 : FVec F S4096x1 .f32 := addf main_v50 main_v51
  let main_cst_15 : FVec F S_ .f32 := constant S_ .f32 0x00000000#32
  let main_v53 : FVec F S4096x1 .f32 := broadcastInDim S4096x1 ![] bcast_S_S4096x1 main_cst_15
  fn_part3 (F := F) main_v28 main_v52 main_v53

def fn_part1 {F : FTy → Type} [FloatOps F] (main_arg0 : FVec F S4096x512 .f32) (main_arg1 : FVec F S4096 .f32) (main_arg2 : FVec F S513x16384 .f32) (main_arg3 : FVec F S16384 .f32) (main_arg4 : FVec F S16384x64 .f32) (main_arg5 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384x64 .f32 := Host.absf main_arg4
  let main_cst_6 : FVec F S_ .f32 := constant S_ .f32 0x7F800000#32
  let main_v20 : FVec F S16384x64 .f32 := broadcastInDim S16384x64 ![] bcast_S_S16384x64 main_cst_6
  let main_v21 : IVec S16384x64 1 := cmpf .olt main_v19 main_v20
  let main_c_7 : IVec S_ 1 := constantI S_ 1 1#1
  let main_v22 : IVec S_ 1 := (fun x v => Host.reduce IntOp.andi x v reducesTo_S16384x64_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S4096x1 .f32 := broadcastInDim S4096x1 ![0] bcast_S4096_S4096x1_0 main_arg1
  let main_v30 : FVec F S4096x513 .f32 := (fun a b => concatenate S4096x513 1 [⟨S4096x512, a⟩, ⟨S4096x1, b⟩] concatenates_S4096x512_S4096x1_S4096x513_d1) main_arg0 main_v29
  let main_v31 : FVec F S4096x16384 .f32 := (fun l r => Host.dotGeneral dot_S4096x513_S513x16384_S4096x16384_1_0_0_1_n_n none l r) main_v30 main_arg2
  let main_v32 : FVec F S1x16384 .f32 := broadcastInDim S1x16384 ![1] bcast_S16384_S1x16384_1 main_arg3
  let main_v33 : FVec F S4096x16384 .f32 := broadcastInDim S4096x16384 ![0, 1] bcast_S1x16384_S4096x16384_0_1 main_v32
  let main_v34 : FVec F S4096x16384 .f32 := addf main_v31 main_v33
  let main_cst_10 : FVec F S_ .f32 := constant S_ .f32 0xFF800000#32
  fn_part2 (F := F) main_arg5 main_v28 main_v34 main_cst_10

def fn {F : FTy → Type} [FloatOps F] (main_arg0 : FVec F S4096x512 .f32) (main_arg1 : FVec F S4096 .f32) (main_arg2 : FVec F S513x16384 .f32) (main_arg3 : FVec F S16384 .f32) (main_arg4 : FVec F S16384x64 .f32) (main_arg5 : FVec F S16384 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S513x16384 .f32 := Host.absf main_arg2
  let main_cst_2 : FVec F S_ .f32 := constant S_ .f32 0x7F800000#32
  let main_v10 : FVec F S513x16384 .f32 := broadcastInDim S513x16384 ![] bcast_S_S513x16384 main_cst_2
  let main_v11 : IVec S513x16384 1 := cmpf .olt main_v9 main_v10
  let main_c_3 : IVec S_ 1 := constantI S_ 1 1#1
  let main_v12 : IVec S_ 1 := (fun x v => Host.reduce IntOp.andi x v reducesTo_S513x16384_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg0 main_arg1 main_arg2 main_arg3 main_arg4 main_arg5 main_v13 main_v16
-- ==== Kernel.lean ====
abbrev S4096x512 : Shape := ⟨2, ![4096, 512]⟩
abbrev S4096 : Shape := ⟨1, ![4096]⟩
abbrev S513x16384 : Shape := ⟨2, ![513, 16384]⟩
abbrev S16384 : Shape := ⟨1, ![16384]⟩
abbrev S16384x64 : Shape := ⟨2, ![16384, 64]⟩
abbrev S512x16384 : Shape := ⟨2, ![512, 16384]⟩
abbrev S1x16384 : Shape := ⟨2, ![1, 16384]⟩
abbrev S4096x1 : Shape := ⟨2, ![4096, 1]⟩
abbrev S4096x64 : Shape := ⟨2, ![4096, 64]⟩
abbrev S4096x16384 : Shape := ⟨2, ![4096, 16384]⟩
abbrev S128x512 : Shape := ⟨2, ![128, 512]⟩
abbrev S128x1 : Shape := ⟨2, ![128, 1]⟩
abbrev S128x64 : Shape := ⟨2, ![128, 64]⟩
abbrev S128x16384 : Shape := ⟨2, ![128, 16384]⟩
abbrev S128 : Shape := ⟨1, ![128]⟩

abbrev nBuf : Space → Nat
  | .hbm => 18
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096, .f32⟩
  | .hbm, ⟨2, _⟩ => ⟨S513x16384, .f32⟩
  | .hbm, ⟨3, _⟩ => ⟨S16384, .f32⟩
  | .hbm, ⟨4, _⟩ => ⟨S16384x64, .f32⟩
  | .hbm, ⟨5, _⟩ => ⟨S16384, .f32⟩
  | .hbm, ⟨6, _⟩ => ⟨S4096x512, .bf16⟩
  | .hbm, ⟨7, _⟩ => ⟨S512x16384, .f32⟩
  | .hbm, ⟨8, _⟩ => ⟨S512x16384, .bf16⟩
  | .hbm, ⟨9, _⟩ => ⟨S1x16384, .f32⟩
  | .hbm, ⟨10, _⟩ => ⟨S16384, .f32⟩
  | .hbm, ⟨11, _⟩ => ⟨S1x16384, .f32⟩
  | .hbm, ⟨12, _⟩ => ⟨S16384x64, .bf16⟩
  | .hbm, ⟨13, _⟩ => ⟨S4096x1, .f32⟩
  | .hbm, ⟨14, _⟩ => ⟨S1x16384, .f32⟩
  | .hbm, ⟨15, _⟩ => ⟨S1x16384, .f32⟩
  | .hbm, ⟨16, _⟩ => ⟨S4096x64, .f32⟩
  | .hbm, ⟨17, _⟩ => ⟨S4096x16384, .f32⟩
  | .local _ .vmem, ⟨0, _⟩ => ⟨S128x512, .bf16⟩
  | .local _ .vmem, ⟨1, _⟩ => ⟨S128x512, .bf16⟩
  | .local _ .vmem, ⟨2, _⟩ => ⟨S128x1, .f32⟩
  | .local _ .vmem, ⟨3, _⟩ => ⟨S128x1, .f32⟩
  | .local _ .vmem, ⟨4, _⟩ => ⟨S512x16384, .bf16⟩
  | .local _ .vmem, ⟨5, _⟩ => ⟨S1x16384, .f32⟩
  | .local _ .vmem, ⟨6, _⟩ => ⟨S1x16384, .f32⟩
  | .local _ .vmem, ⟨7, _⟩ => ⟨S1x16384, .f32⟩
  | .local _ .vmem, ⟨8, _⟩ => ⟨S16384x64, .bf16⟩
  | .local _ .vmem, ⟨9, _⟩ => ⟨S128x64, .f32⟩
  | .local _ .vmem, ⟨10, _⟩ => ⟨S128x64, .f32⟩
  | .local _ .vmem, ⟨11, _⟩ => ⟨S128x16384, .f32⟩
  | .local _ .vmem, ⟨12, _⟩ => ⟨S128x16384, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16384x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  slices_S513x16384_S512x16384_0_0 : S513x16384.Slices ![0, 0] S512x16384
  slices_S513x16384_S1x16384_512_0 : S513x16384.Slices ![512, 0] S1x16384
  shapeCasts_S1x16384_S16384 : S1x16384.ShapeCasts S16384
  shapeCasts_S16384_S1x16384 : S16384.ShapeCasts S1x16384
  shapeCasts_S4096_S4096x1 : S4096.ShapeCasts S4096x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x16384_S512x16384_0_0 : ∀ a, (![0, 0] : Fin 2 → Nat) a + S512x16384.size a ≤ S512x16384.size a
  h_S512x16384 : 0 < S512x16384.numel
  shapeCasts_S512x16384_S512x16384 : S512x16384.ShapeCasts S512x16384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S128x1_S128x16384 : S128x1.Broadcasts S128x16384
  broadcasts_S1x16384_S128x16384 : S1x16384.Broadcasts S128x16384
  reduces_S128x16384_S128 : S128x16384.Reduces [1] S128
  shapeCasts_S128_S128x1 : S128.ShapeCasts S128x1
  inb_S128x16384_S128x16384_0_0 : ∀ a, (![0, 0] : Fin 2 → Nat) a + S128x16384.size a ≤ S128x16384.size a
  h_S128x16384 : 0 < S128x16384.numel
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S128x64_S128x64_0_0 : ∀ a, (![0, 0] : Fin 2 → Nat) a + S128x64.size a ≤ S128x64.size a
  h_S128x64 : 0 < S128x64.numel
  dot_S128x512_S512x16384_S128x16384_1_0_0_1_n_n_wf : DotDims.WF S128x512 S512x16384 S128x16384 [1] [0] [0] [1] [] []
  dot_S128x16384_S16384x64_S128x64_1_0_0_1_n_n_wf : DotDims.WF S128x16384 S16384x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .bf16 = 32 ∨ (Rect.block (s := S4096x512) S128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .f32 = 32 ∨ (Rect.block (s := S4096x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x16384.size a ≤ S512x16384.size a
  hwx0_2 : ∀ i : grid0.Coords, EltTy.bits .bf16 = 32 ∨ (Rect.block (s := S512x16384) S512x16384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16384.size a ≤ S1x16384.size a
  hwx0_4 : ∀ i : grid0.Coords, EltTy.bits .f32 = 32 ∨ (Rect.block (s := S1x16384) S1x16384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16384.size a ≤ S1x16384.size a
  hwx0_5 : ∀ i : grid0.Coords, EltTy.bits .f32 = 32 ∨ (Rect.block (s := S1x16384) S1x16384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16384x64.size a ≤ S16384x64.size a
  hwx0_6 : ∀ i : grid0.Coords, EltTy.bits .bf16 = 32 ∨ (Rect.block (s := S16384x64) S16384x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S4096x64.size a
  hwx0_7 : ∀ i : grid0.Coords, EltTy.bits .f32 = 32 ∨ (Rect.block (s := S4096x64) S128x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x16384.size a ≤ S4096x16384.size a
  hwx0_8 : ∀ i : grid0.Coords, EltTy.bits .f32 = 32 ∨ (Rect.block (s := S4096x16384) S128x16384.size (cc0_transform_8 i) (hinb0_8 i)).WholeWords (EltTy.packing .f32)

variable [Facts₀]

def dot_S128x512_S512x16384_S128x16384_1_0_0_1_n_n : DotDims S128x512 S512x16384 S128x16384 where
  lhsContracting := [1]
  rhsContracting := [0]
  lhsNonContracting := [0]
  rhsNonContracting := [1]
  lhsBatch := []
  rhsBatch := []
  wf := dot_S128x512_S512x16384_S128x16384_1_0_0_1_n_n_wf
def dot_S128x16384_S16384x64_S128x64_1_0_0_1_n_n : DotDims S128x16384 S16384x64 S128x64 where
  lhsContracting := [1]
  rhsContracting := [0]
  lhsNonContracting := [0]
  rhsNonContracting := [1]
  lhsBatch := []
  rhsBatch := []
  wf := dot_S128x16384_S16384x64_S128x64_1_0_0_1_n_n_wf

abbrev win0_0 : Pipeline.Window sig grid0 :=
  Pipeline.Window.ofSpec (Memref.whole main_v0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x16384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x16384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S16384x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S128x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S128x16384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S513x16384 : Shape := ⟨2, ![513, 16384]⟩
abbrev S16384 : Shape := ⟨1, ![16384]⟩
abbrev S16384x64 : Shape := ⟨2, ![16384, 64]⟩
abbrev S4096x1 : Shape := ⟨2, ![4096, 1]⟩
abbrev S4096x513 : Shape := ⟨2, ![4096, 513]⟩
abbrev S4096x16384 : Shape := ⟨2, ![4096, 16384]⟩
abbrev S1x16384 : Shape := ⟨2, ![1, 16384]⟩
abbrev S_ : Shape := ⟨0, ![]⟩
abbrev S4096x64 : Shape := ⟨2, ![4096, 64]⟩

abbrev nBuf : Space → Nat
  | .hbm => 38
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .f32⟩
  | .hbm, ⟨2, _⟩ => ⟨S513x16384, .f32⟩
  | .hbm, ⟨3, _⟩ => ⟨S16384, .f32⟩
  | .hbm, ⟨4, _⟩ => ⟨S16384x64, .f32⟩
  | .hbm, ⟨5, _⟩ => ⟨S16384, .f32⟩
  | .hbm, ⟨6, _⟩ => ⟨S4096x1, .f32⟩
  | .hbm, ⟨7, _⟩ => ⟨S4096x513, .f32⟩
  | .hbm, ⟨8, _⟩ => ⟨S4096x16384, .f32⟩
  | .hbm, ⟨9, _⟩ => ⟨S1x16384, .f32⟩
  | .hbm, ⟨10, _⟩ => ⟨S4096x16384, .f32⟩
  | .hbm, ⟨11, _⟩ => ⟨S4096x16384, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x16384, .f32⟩
  | .hbm, ⟨25, _⟩ => ⟨S4096x16384, .f32⟩
  | .hbm, ⟨26, _⟩ => ⟨S1x16384, .f32⟩
  | .hbm, ⟨27, _⟩ => ⟨S4096x16384, .f32⟩
  | .hbm, ⟨28, _⟩ => ⟨S4096x16384, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x16384, .f32⟩
  | .hbm, ⟨36, _⟩ => ⟨S4096x16384, .f32⟩
  | .hbm, ⟨37, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  concatenates_S4096x512_S4096x1_S4096x513_d1 : Shape.Concatenates [S4096x512, S4096x1] S4096x513 1
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  reducesTo_S4096x16384_S4096_d1 : S4096x16384.ReducesTo [1] S4096
  h_S_ : 0 < S_.numel
  bcast_S_S4096 : S_.BroadcastsInDim S4096 (![] : Fin 0 → Fin S4096.rank)
  bcast_S4096x1_S4096x16384_0_1 : S4096x1.BroadcastsInDim S4096x16384 (![0, 1] : Fin 2 → Fin S4096x16384.rank)
  bcast_S_S4096x1 : S_.BroadcastsInDim S4096x1 (![] : Fin 0 → Fin S4096x1.rank)
  dot_S4096x513_S513x16384_S4096x16384_1_0_0_1_n_n_wf : DotDims.WF S4096x513 S513x16384 S4096x16384 [1] [0] [0] [1] [] []
  dot_S4096x16384_S16384x64_S4096x64_1_0_0_1_n_n_wf : DotDims.WF S4096x16384 S16384x64 S4096x64 [1] [0] [0] [1] [] []

variable [Facts₀]

def dot_S4096x513_S513x16384_S4096x16384_1_0_0_1_n_n : DotDims S4096x513 S513x16384 S4096x16384 where
  lhsContracting := [1]
  rhsContracting := [0]
  lhsNonContracting := [0]
  rhsNonContracting := [1]
  lhsBatch := []
  rhsBatch := []
  wf := dot_S4096x513_S513x16384_S4096x16384_1_0_0_1_n_n_wf
def dot_S4096x16384_S16384x64_S4096x64_1_0_0_1_n_n : DotDims S4096x16384 S16384x64 S4096x64 where
  lhsContracting := [1]
  rhsContracting := [0]
  lhsNonContracting := [0]
  rhsNonContracting := [1]
  lhsBatch := []
  rhsBatch := []
  wf := dot_S4096x16384_S16384x64_S4096x64_1_0_0_1_n_n_wf

class Facts : Prop extends Facts₀ where

variable [Facts]
-- ==== Proof.Spec.lean ====
/-
  The mathematics of the fused priority-memory read, row by row, on the extended reals.

  A row of logits is l j = (Σ_k x_k · W k j) + b j, where x is the query row with the integration level joined as a
  last coordinate.  The read weights are the softmax of the row, e_j / Σ e with e_j = exp (l j − max l); the
  importance weighting multiplies by imp j, and the renormalisation divides the weighted row by its own sum plus a
  small guard.  The content read is the product of the renormalised row with the memory matrix.

  Two spellings of each quotient occur: x / y (the quotient itself) and x · (1 / y) (the product with the
  reciprocal).  They agree off y = 0 and differ at y = 0 (there 0 / 0 and 0 · (1 / 0) are different conventions),
  so each agreement below carries the hypothesis that its divisor is not zero.  Likewise the joined contraction over
  513 coordinates is the contraction over the first 512 plus the last term.
-/
import Idealize.ShloMosaic.PureOps.Ideal
import Idealize.ShloMosaic.PureOps.Ideal.Laws
import Idealize.ShloMosaic.Lib.ValueIdx
import Mathlib.Data.Finset.Fold

noncomputable section

namespace Cert.Spec

open Idealize.ShloMosaic

/-- A rank-2 array as a function of its two coordinates. -/
abbrev mat {a b : Nat} (x : (⟨2, ![a, b]⟩ : Shape).Idx → EReal) : Fin a → Fin b → EReal :=
  fun r k => x (ValueIdx.ix2 r k)

/-- A rank-1 array as a function of its coordinate. -/
abbrev vec {a : Nat} (x : (⟨1, ![a]⟩ : Shape).Idx → EReal) : Fin a → EReal :=
  fun r => x (ValueIdx.ix1 r)

/-- The guard added to the renormalisation's divisor: the value of the single-precision word both programs carry. -/
def guard : EReal := Ideal.ofBits .f32 0x358637BD#32

/-- An extended real that is a real number. -/
def Fin' (x : EReal) : Prop := x ≠ ⊥ ∧ x ≠ ⊤

/-! ## One row -/

section Row

variable {n : Nat}

/-- The largest entry of a row (the bottom element for an empty row). -/
def rowMax (l : Fin n → EReal) : EReal := (Finset.univ : Finset (Fin n)).fold max ⊥ l

/-- exp (l j − max l). -/
def expShift (l : Fin n → EReal) (j : Fin n) : EReal := Ideal.exp (l j - rowMax l)

/-- Σ_j exp (l j − max l). -/
def expSum (l : Fin n → EReal) : EReal := ∑ j, expShift l j

/-- The softmax entry as a quotient. -/
def softQuot (l : Fin n → EReal) (j : Fin n) : EReal := Ideal.div (expShift l j) (expSum l)

/-- The softmax entry as a product with the reciprocal of the sum. -/
def softRecip (l : Fin n → EReal) (j : Fin n) : EReal := expShift l j * Ideal.div 1 (expSum l)

/-- The renormalisation's divisor of a weighted row: its sum plus the guard. -/
def divisor (w : Fin n → EReal) : EReal := (∑ j, w j) + guard

/-- The renormalised entry as a quotient. -/
def renormQuot (w : Fin n → EReal) (j : Fin n) : EReal := Ideal.div (w j) (divisor w)

/-- The renormalised entry as a product with the reciprocal of the divisor. -/
def renormRecip (w : Fin n → EReal) (j : Fin n) : EReal := w j * Ideal.div 1 (divisor w)

/-- Off a zero divisor the quotient is the product with the reciprocal. -/
theorem div_eq_mul_recip {x y : EReal} (hy : y ≠ 0) : Ideal.div x y = x * Ideal.div 1 y := by
  -- off zero both quotients are products with y⁻¹, and 1 · y⁻¹ = y⁻¹
  unfold Ideal.div
  rw [if_neg hy, if_neg hy, one_mul]

theorem softRecip_eq_softQuot (l : Fin n → EReal) (h : expSum l ≠ 0) : softRecip l = softQuot l := by
  funext j
  exact (div_eq_mul_recip h).symm

theorem renormRecip_eq_renormQuot (w : Fin n → EReal) (h : divisor w ≠ 0) : renormRecip w = renormQuot w := by
  funext j
  exact (div_eq_mul_recip h).symm

/-- A real number, read as an extended real, is one. -/
private theorem fin'_coe (r : ℝ) : Fin' (r : EReal) := ⟨EReal.coe_ne_bot r, EReal.coe_ne_top r⟩

/-- An extended real that is a real number is the image of one. -/
private theorem Fin'.exists_coe {x : EReal} (h : Fin' x) : ∃ r : ℝ, x = (r : EReal) := by
  lift x to ℝ using ⟨h.2, h.1⟩
  exact ⟨x, rfl⟩

/-- The maximum of a non-empty row of real numbers is a real number: it lies above the first entry, which is not ⊥,
    and it is below ⊤ because ⊥ and every entry are. -/
private theorem rowMax_fin (l : Fin n → EReal) (hn : 0 < n) (hl : ∀ j, Fin' (l j)) : Fin' (rowMax l) := by
  constructor
  · have h : ⊥ < rowMax l :=
      (Finset.lt_fold_max ⊥).mpr (Or.inr ⟨⟨0, hn⟩, Finset.mem_univ _, bot_lt_iff_ne_bot.mpr (hl _).1⟩)
    exact ne_of_gt h
  · have h : rowMax l < ⊤ :=
      (Finset.fold_max_lt ⊤).mpr ⟨bot_lt_top, fun j _ => lt_top_iff_ne_top.mpr (hl j).2⟩
    exact ne_of_lt h

/-- On a non-empty row of real numbers every shifted exponential is positive: the exponent is a real number. -/
private theorem expShift_pos (l : Fin n → EReal) (hn : 0 < n) (hl : ∀ j, Fin' (l j)) (j : Fin n) :
    0 < expShift l j := by
  obtain ⟨a, ha⟩ := (hl j).exists_coe
  obtain ⟨m, hm⟩ := (rowMax_fin l hn hl).exists_coe
  unfold expShift
  rw [ha, hm, ← EReal.coe_sub, Ideal.exp_coe]
  exact_mod_cast Real.exp_pos (a - m)

/-- A non-empty row of real numbers has a non-zero exponential sum: its maximum is a real number, attained, so one
    term is exp 0 = 1 and the others are not negative. -/
theorem expSum_ne_zero (l : Fin n → EReal) (hn : 0 < n) (hl : ∀ j, Fin' (l j)) : expSum l ≠ 0 := by
  -- every term is positive, so the sum is at least its first term, which is positive
  have hle : expShift l ⟨0, hn⟩ ≤ expSum l :=
    Finset.single_le_sum (f := expShift l) (fun j _ => (expShift_pos l hn hl j).le) (Finset.mem_univ _)
  exact ne_of_gt (lt_of_lt_of_le (expShift_pos l hn hl ⟨0, hn⟩) hle)

end Row

/-! ## Real numbers among the extended reals are closed under sums and products -/

private theorem Fin'.add {x y : EReal} (hx : Fin' x) (hy : Fin' y) : Fin' (x + y) := by
  obtain ⟨a, rfl⟩ := hx.exists_coe
  obtain ⟨c, rfl⟩ := hy.exists_coe
  rw [← EReal.coe_add]
  exact fin'_coe _

private theorem Fin'.mul {x y : EReal} (hx : Fin' x) (hy : Fin' y) : Fin' (x * y) := by
  obtain ⟨a, rfl⟩ := hx.exists_coe
  obtain ⟨c, rfl⟩ := hy.exists_coe
  rw [← EReal.coe_mul]
  exact fin'_coe _

private theorem Fin'.sum {m : Nat} {f : Fin m → EReal} (hf : ∀ k, Fin' (f k)) : Fin' (∑ k, f k) := by
  -- by induction on the index set: the empty sum is 0, and one more term keeps the sum real
  have h : ∀ s : Finset (Fin m), Fin' (∑ k ∈ s, f k) := by
    intro s
    induction s using Finset.induction_on with
    | empty =>
      rw [Finset.sum_empty, ← EReal.coe_zero]
      exact fin'_coe 0
    | insert k s hk ih =>
      rw [Finset.sum_insert hk]
      exact (hf k).add ih
  exact h Finset.univ

/-! ## The logits -/

/-- The query row with the integration level joined as coordinate 512. -/
def joined (q : Fin 512 → EReal) (il : EReal) (k : Fin 513) : EReal :=
  if h : k.val < 512 then q ⟨k.val, h⟩ else il

/-- A logit by ONE contraction over the 513 joined coordinates. -/
def logitJoined (q : Fin 512 → EReal) (il : EReal) (W : Fin 513 → Fin 16384 → EReal) (b : Fin 16384 → EReal)
    (j : Fin 16384) : EReal :=
  (∑ k : Fin 513, joined q il k * W k j) + b j

/-- A logit by the contraction over the 512 query coordinates plus the integration level's term. -/
def logitSplit (q : Fin 512 → EReal) (il : EReal) (Wq : Fin 512 → Fin 16384 → EReal) (wl : Fin 16384 → EReal)
    (b : Fin 16384 → EReal) (j : Fin 16384) : EReal :=
  ((∑ k : Fin 512, q k * Wq k j) + il * wl j) + b j

/-- Splitting the last coordinate off the joined contraction. -/
theorem logitSplit_eq_logitJoined (q : Fin 512 → EReal) (il : EReal) (W : Fin 513 → Fin 16384 → EReal)
    (b : Fin 16384 → EReal) :
    logitSplit q il (fun k j => W k.castSucc j) (fun j => W (Fin.last 512) j) b = logitJoined q il W b := by
  -- the joined row is q on the first 512 coordinates and il at the last one
  have hq : ∀ k : Fin 512, joined q il k.castSucc = q k := by
    intro k
    unfold joined
    rw [dif_pos (show (k.castSucc).val < 512 from k.isLt)]
    rfl
  have hil : joined q il (Fin.last 512) = il := by
    unfold joined
    rw [dif_neg (show ¬ (Fin.last 512).val < 512 from lt_irrefl 512)]
  funext j
  unfold logitSplit logitJoined
  rw [Fin.sum_univ_castSucc (f := fun k : Fin 513 => joined q il k * W k j), hil]
  simp only [hq]

/-- Real inputs give real logits. -/
theorem logitJoined_fin (q : Fin 512 → EReal) (il : EReal) (W : Fin 513 → Fin 16384 → EReal) (b : Fin 16384 → EReal)
    (hq : ∀ k, Fin' (q k)) (hil : Fin' il) (hW : ∀ k j, Fin' (W k j)) (hb : ∀ j, Fin' (b j)) (j : Fin 16384) :
    Fin' (logitJoined q il W b j) := by
  -- the joined row is made of real numbers, so each product is real, so is their sum, and so is the sum plus b j
  have hx : ∀ k, Fin' (joined q il k) := by
    intro k
    unfold joined
    split
    · exact hq _
    · exact hil
  unfold logitJoined
  exact (Fin'.sum fun k => (hx k).mul (hW k j)).add (hb j)

/-! ## The two results, in the two spellings -/

/-- The importance-weighted softmax row, quotient spelling, over the joined contraction. -/
def weightedQuot (q : Fin 4096 → Fin 512 → EReal) (il : Fin 4096 → EReal) (W : Fin 513 → Fin 16384 → EReal)
    (b imp : Fin 16384 → EReal) (r : Fin 4096) (j : Fin 16384) : EReal :=
  softQuot (logitJoined (q r) (il r) W b) j * imp j

/-- The renormalised importance weights, quotient spelling. -/
def iwQuot (q : Fin 4096 → Fin 512 → EReal) (il : Fin 4096 → EReal) (W : Fin 513 → Fin 16384 → EReal)
    (b imp : Fin 16384 → EReal) (r : Fin 4096) (j : Fin 16384) : EReal :=
  renormQuot (weightedQuot q il W b imp r) j

/-- The renormalised importance weights, reciprocal spelling over the split contraction. -/
def iwRecip (q : Fin 4096 → Fin 512 → EReal) (il : Fin 4096 → EReal) (Wq : Fin 512 → Fin 16384 → EReal)
    (wl b imp : Fin 16384 → EReal) (r : Fin 4096) (j : Fin 16384) : EReal :=
  renormRecip (fun j' => softRecip (logitSplit (q r) (il r) Wq wl b) j' * imp j') j

/-- The content read: the weights' row times the memory matrix. -/
def readOut (iw : Fin 4096 → Fin 16384 → EReal) (mem : Fin 16384 → Fin 64 → EReal) (r : Fin 4096) (d : Fin 64) : EReal :=
  ∑ j, iw r j * mem j d

/-- On real inputs whose renormalisation divisors are not zero the two spellings are one function. -/
theorem iwRecip_eq_iwQuot (q : Fin 4096 → Fin 512 → EReal) (il : Fin 4096 → EReal) (W : Fin 513 → Fin 16384 → EReal)
    (b imp : Fin 16384 → EReal)
    (hq : ∀ r k, Fin' (q r k)) (hil : ∀ r, Fin' (il r)) (hW : ∀ k j, Fin' (W k j)) (hb : ∀ j, Fin' (b j))
    (hd : ∀ r, divisor (weightedQuot q il W b imp r) ≠ 0) :
    iwRecip q il (fun k j => W k.castSucc j) (fun j => W (Fin.last 512) j) b imp = iwQuot q il W b imp := by
  funext r j
  -- the row of logits is the same in both contractions, and it is a row of real numbers
  have hlog : logitSplit (q r) (il r) (fun k j => W k.castSucc j) (fun j => W (Fin.last 512) j) b
      = logitJoined (q r) (il r) W b := logitSplit_eq_logitJoined (q r) (il r) W b
  have hsum : expSum (logitJoined (q r) (il r) W b) ≠ 0 :=
    expSum_ne_zero _ (by norm_num) (logitJoined_fin (q r) (il r) W b (hq r) (hil r) hW hb)
  -- so the softmax agrees in both spellings, and the weighted row is the quotient spelling's
  have hrow : (fun j' => softRecip (logitSplit (q r) (il r) (fun k j => W k.castSucc j)
      (fun j => W (Fin.last 512) j) b) j' * imp j') = weightedQuot q il W b imp r := by
    funext j'
    rw [hlog, softRecip_eq_softQuot _ hsum]
    rfl
  unfold iwRecip iwQuot
  rw [hrow, renormRecip_eq_renormQuot _ (hd r)]

end Cert.Spec

end
-- ==== Proof.PreFacts.lean ====
/-
  What the precondition says of the six argument arrays: every entry is a real number, and on every row the
  reference's renormalisation divisor (its stage %23: the row's importance-weighted softmax summed, plus the guard) is
  not zero.

  The precondition is a conjunction of seven statements "for every index, a comparison holds".  Six of them compare
  |x| with +∞, entry by entry, over one argument array each: |x| < +∞ fails at both infinities (|⊥| = |⊤| = ⊤) and
  holds at every real, so it says that x is a real number.  The seventh compares the divisor with 0 by "not equal",
  row by row; the divisor it names is built from the arguments by the very operations of the reference's stages
  %0 … %23, so it is that stage's value.
-/
import proofs.«172350_g58497454572246_cont_9to1c4b_647_4_alg».proof.Pre_finite_inputs
import proofs.«172350_g58497454572246_cont_9to1c4b_647_4_alg».proof.Proof.Gen.Pre_finite_inputs
import proofs.«172350_g58497454572246_cont_9to1c4b_647_4_alg».proof.Proof.Gen.ReferenceIdeal.Read
import proofs.«172350_g58497454572246_cont_9to1c4b_647_4_alg».proof.Proof.Spec
import Idealize.ShloMosaic.Lib.ReduceAll

noncomputable section

namespace Cert.PreFacts

open Idealize.ShloMosaic

/-- An array of rank 0 has exactly one index. -/
private instance : Subsingleton Cert.Pre_finite_inputs.S_.Idx := ⟨fun a b => funext fun d => d.elim0⟩

/-- The single-precision word 0x7F800000 (exponent all ones, fraction zero, sign clear) denotes +∞. -/
private theorem ofBits_inf : Ideal.ofBits .f32 0x7F800000#32 = (⊤ : EReal) := by
  simp [Ideal.ofBits, Ideal.ieee]

/-- |x| < +∞ holds of the real numbers only: at either infinity |x| = ⊤. -/
private theorem fin_of_abs_lt_top (x : EReal) (h : Ideal.cmp .olt (max x (-x)) ⊤ = 1#1) : Cert.Spec.Fin' x := by
  induction x using EReal.rec with
  | bot => simp [Ideal.cmp] at h
  | top => simp [Ideal.cmp] at h
  | coe r => exact ⟨EReal.coe_ne_bot r, EReal.coe_ne_top r⟩

/-- Entry by entry: where |v| < b holds at an index and b is +∞ there, the entry of v is a real number. -/
private theorem fin_of_cmp {s : Shape} (v b : FVec Ideal s .f32) (hb : ∀ i, b i = ⊤) (i : s.Idx)
    (h : cmpf .olt (Host.absf v) b i = 1#1) : Cert.Spec.Fin' (v i) := by
  have h' : Ideal.cmp .olt (max (v i) (-(v i))) (b i) = 1#1 := h
  rw [hb i] at h'
  exact fin_of_abs_lt_top _ h'

/-- Entry by entry: where v ≠ z holds at an index and z is 0 there, the entry of v is not zero. -/
private theorem ne_zero_of_cmp {s : Shape} (v z : FVec Ideal s .f32) (hz : ∀ i, z i = 0) (i : s.Idx)
    (h : cmpf .une v z i = 1#1) : v i ≠ 0 := by
  have h' : Ideal.cmp .une (v i) (z i) = 1#1 := h
  rw [hz i] at h'
  intro hx
  rw [hx] at h'
  simp [Ideal.cmp] at h'

/-- The precondition, decoded. -/
theorem of_pre
    (x0 : FVec Ideal Cert.Pre_finite_inputs.S4096x512 .f32) (x1 : FVec Ideal Cert.Pre_finite_inputs.S4096 .f32)
    (x2 : FVec Ideal Cert.Pre_finite_inputs.S513x16384 .f32) (x3 : FVec Ideal Cert.Pre_finite_inputs.S16384 .f32)
    (x4 : FVec Ideal Cert.Pre_finite_inputs.S16384x64 .f32) (x5 : FVec Ideal Cert.Pre_finite_inputs.S16384 .f32)
    (h : Cert.Pre_finite_inputs.fn (F := Ideal) x0 x1 x2 x3 x4 x5 = fun _ => 1#1) :
    (∀ i, Cert.Spec.Fin' (x0 i)) ∧ (∀ i, Cert.Spec.Fin' (x1 i)) ∧ (∀ i, Cert.Spec.Fin' (x2 i))
      ∧ (∀ i, Cert.Spec.Fin' (x3 i)) ∧ (∀ i, Cert.Spec.Fin' (x4 i)) ∧ (∀ i, Cert.Spec.Fin' (x5 i))
      ∧ ∀ i, Cert.ReferenceIdeal.Read.val_main_v23 (F := Ideal) x0 x1 x2 x3 x5 i ≠ 0 := by
  -- the predicate's one value, as the conjunction of its seven "for all" parts
  have h0 := congrFun h ValueIdx.ix0
  dsimp only [Cert.Pre_finite_inputs.fn, Cert.Pre_finite_inputs.fn_part1, Cert.Pre_finite_inputs.fn_part2,
    Cert.Pre_finite_inputs.fn_part3] at h0
  -- a conjunction of bits is 1 exactly when both are
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- a "for all" that is 1 has a 1 at every index; there the compared constant is +∞ (the six) or 0 (the seventh)
  have r0 := fun i => fin_of_cmp x0 _ (fun _ => ofBits_inf) i (Host.reduce_andi_all _ _ _ _ _ e0 i)
  have r1 := fun i => fin_of_cmp x1 _ (fun _ => ofBits_inf) i (Host.reduce_andi_all _ _ _ _ _ e1 i)
  have r2 := fun i => fin_of_cmp x2 _ (fun _ => ofBits_inf) i (Host.reduce_andi_all _ _ _ _ _ e2 i)
  have r3 := fun i => fin_of_cmp x3 _ (fun _ => ofBits_inf) i (Host.reduce_andi_all _ _ _ _ _ e3 i)
  have r4 := fun i => fin_of_cmp x4 _ (fun _ => ofBits_inf) i (Host.reduce_andi_all _ _ _ _ _ e4 i)
  have r5 := fun i => fin_of_cmp x5 _ (fun _ => ofBits_inf) i (Host.reduce_andi_all _ _ _ _ _ e5 i)
  have r6 := fun i => ne_zero_of_cmp _ _ (fun _ => Ideal.ofBits_zero_f32) i (Host.reduce_andi_all _ _ _ _ _ e6 i)
  -- the divisor the seventh part names is, operation for operation, the reference's stage %23
  exact ⟨r0, r1, r2, r3, r4, r5, r6⟩

end Cert.PreFacts

end
-- ==== Proof.RefValue.lean ====
/-
  The reference's stages read at an index: its two results, and its renormalisation divisor, are the quotient
  spelling of the specification over the joined contraction.
-/
import proofs.«172350_g58497454572246_cont_9to1c4b_647_4_alg».proof.Proof.Gen.ReferenceIdeal.Read
import proofs.«172350_g58497454572246_cont_9to1c4b_647_4_alg».proof.Proof.Spec

noncomputable section

namespace Cert.RefValue

open Idealize.ShloMosaic Idealize.ShloMosaic.ValueIdx Cert.ReferenceIdeal Cert.ReferenceIdeal.Read Cert.Spec
open Cert.ReferenceIdeal.Gen

variable (x0 : FVec Ideal S4096x512 .f32) (x1 : FVec Ideal S4096 .f32) (x2 : FVec Ideal S513x16384 .f32)
  (x3 : FVec Ideal S16384 .f32) (x4 : FVec Ideal S16384x64 .f32) (x5 : FVec Ideal S16384 .f32)

/-! ## The logits: the joined row, one contraction over its 513 coordinates, plus the bias -/

private theorem lidx2_ix2 (r : Fin 4096) (j : Fin 16384) (k : Fin 513) : lidx_main_v2 (ix2 r j) k = ix2 r k :=
  funext fun a => Fin.ext (by match a with | ⟨0, _⟩ => rfl | ⟨1, _⟩ => rfl)

private theorem ridx2_ix2 (r : Fin 4096) (j : Fin 16384) (k : Fin 513) : ridx_main_v2 (ix2 r j) k = ix2 k j :=
  funext fun a => Fin.ext (by match a with | ⟨0, _⟩ => rfl | ⟨1, _⟩ => rfl)

private theorem idx3_idx4_ix2 (r : Fin 4096) (j : Fin 16384) : idx_main_v3 (idx_main_v4 (ix2 r j)) = ix1 j :=
  funext fun a => Fin.ext (by match a with | ⟨0, _⟩ => rfl)

/-- The joined row: stage %1 at (r, k). -/
private theorem joined_apply (r : Fin 4096) (k : Fin 513) :
    val_main_v1 (F := Ideal) x0 x1 (ix2 r k) = joined (mat x0 r) (vec x1 r) k := by
  unfold val_main_v1 joined
  by_cases h : k.val < 512
  · rw [dif_pos h]
    exact concatenate_pair_apply_left (1 : Fin 2) x0 (val_main_v0 (F := Ideal) x1)
      concatenates_S4096x512_S4096x1_S4096x513_d1 (ix2 r k) rfl (ix2 r ⟨k.val, h⟩)
      (fun b => by match b with | ⟨0, _⟩ => rfl | ⟨1, _⟩ => rfl)
  · rw [dif_neg h]
    have e := concatenate_pair_apply_right (1 : Fin 2) x0 (val_main_v0 (F := Ideal) x1)
      concatenates_S4096x512_S4096x1_S4096x513_d1 (ix2 r k) rfl rfl (ix2 r (0 : Fin 1))
      (fun b hb => by
        match b, hb with
        | ⟨0, _⟩, _ => rfl
        | ⟨1, _⟩, hb => exact absurd rfl hb)
      (by have := k.isLt; show 0 + 512 = k.val; omega)
    rw [e, val_main_v0_apply]
    exact congrArg x1 (funext fun a => Fin.ext (by match a with | ⟨0, _⟩ => rfl))

/-- The logits: stage %5 at (r, j). -/
private theorem logits_apply (r : Fin 4096) (j : Fin 16384) :
    val_main_v5 (F := Ideal) x0 x1 x2 x3 (ix2 r j) = logitJoined (mat x0 r) (vec x1 r) (mat x2) (vec x3) j := by
  rw [val_main_v5_apply, val_main_v2_apply, val_main_v4_apply, val_main_v3_apply, idx3_idx4_ix2]
  unfold logitJoined
  simp only [lidx2_ix2, ridx2_ix2, joined_apply, Ideal.addf_def]

/-! ## The row maximum -/

/-- Over the row index r, the index with k put back on the reduced axis is (r, k). -/
private theorem lift_row (h : S4096x16384.Reduces [1] S4096) (r : Fin 4096) (k : Fin (S4096x16384.size 1)) :
    h.lift (ix1 r) k = ix2 r (⟨k.val, k.isLt⟩ : Fin 16384) := by
  funext c; apply Fin.ext
  match c with
  | ⟨0, _⟩ => rfl
  | ⟨1, _⟩ => rfl

/-- The single-precision word of −∞ is the bottom element. -/
private theorem ofBits_negInf : Ideal.ofBits .f32 0xFF800000#32 = (⊥ : EReal) := by
  simp [Ideal.ofBits, Ideal.ieee]

/-- The row maximum: stage %8 at r. The fold starts from −∞ = ⊥, and the maximum with −∞ taken once more
    changes nothing. -/
private theorem rowMax_apply (r : Fin 4096) :
    val_main_v8 (F := Ideal) x0 x1 x2 x3 (ix1 r) = rowMax (logitJoined (mat x0 r) (vec x1 r) (mat x2) (vec x3)) := by
  have hred : S4096x16384.Reduces [1] S4096 := by decide
  rw [val_main_v8_apply, val_main_v7_apply, val_main_cst_0_apply]
  unfold val_main_v6
  rw [Host.reduce_eq_fold_single FloatOps.maximumf _ _ reducesTo_S4096x16384_S4096_d1 hred h_S_, val_main_cst_apply,
    Ideal.ofBits_def, ofBits_negInf, Ideal.maximumf_def, max_eq_right bot_le]
  have hf : (val_main_v5 (F := Ideal) x0 x1 x2 x3 ∘ hred.lift (ix1 r))
      = fun k : Fin 16384 => logitJoined (mat x0 r) (vec x1 r) (mat x2) (vec x3) k :=
    funext fun k => by
      show val_main_v5 (F := Ideal) x0 x1 x2 x3 (hred.lift (ix1 r) k) = _
      rw [lift_row hred r k]; exact logits_apply x0 x1 x2 x3 r _
  unfold rowMax
  exact congrArg (fun f => Finset.fold max (⊥ : EReal) f (Finset.univ : Finset (Fin 16384))) hf

/-! ## The softmax row -/

private theorem idx9_idx10_ix2 (r : Fin 4096) (j : Fin 16384) : idx_main_v9 (idx_main_v10 (ix2 r j)) = ix1 r :=
  funext fun a => Fin.ext (by match a with | ⟨0, _⟩ => rfl)

/-- exp (l j − max l): stage %12 at (r, j). -/
private theorem expShift_apply (r : Fin 4096) (j : Fin 16384) :
    val_main_v12 (F := Ideal) x0 x1 x2 x3 (ix2 r j)
      = expShift (logitJoined (mat x0 r) (vec x1 r) (mat x2) (vec x3)) j := by
  rw [val_main_v12_apply, val_main_v11_apply, val_main_v10_apply, val_main_v9_apply, idx9_idx10_ix2, rowMax_apply,
    logits_apply, Ideal.hostUnary_exp_def, Ideal.subf_def]
  rfl

private theorem idx13_ix1 (r : Fin 4096) (k : Fin 16384) : idx_main_v13 (ix1 r) k = ix2 r k :=
  funext fun a => Fin.ext (by match a with | ⟨0, _⟩ => rfl | ⟨1, _⟩ => rfl)

/-- Σ_j exp (l j − max l): stage %13 at r; the sum starts from the word of zero. -/
private theorem expSum_apply (r : Fin 4096) :
    val_main_v13 (F := Ideal) x0 x1 x2 x3 (ix1 r) = expSum (logitJoined (mat x0 r) (vec x1 r) (mat x2) (vec x3)) := by
  rw [val_main_v13_apply, val_main_cst_1_apply, Ideal.ofBits_def, Ideal.ofBits_zero_f32, zero_add]
  unfold expSum
  exact Finset.sum_congr rfl fun k _ => by rw [idx13_ix1, expShift_apply]

private theorem idx14_idx15_ix2 (r : Fin 4096) (j : Fin 16384) : idx_main_v14 (idx_main_v15 (ix2 r j)) = ix1 r :=
  funext fun a => Fin.ext (by match a with | ⟨0, _⟩ => rfl)

/-- The softmax entry as a quotient: stage %16 at (r, j). -/
private theorem softQuot_apply (r : Fin 4096) (j : Fin 16384) :
    val_main_v16 (F := Ideal) x0 x1 x2 x3 (ix2 r j)
      = softQuot (logitJoined (mat x0 r) (vec x1 r) (mat x2) (vec x3)) j := by
  rw [val_main_v16_apply, val_main_v15_apply, val_main_v14_apply, idx14_idx15_ix2, expSum_apply, expShift_apply,
    Ideal.hostDivf_def]
  rfl

/-! ## The importance weighting and the renormalisation -/

private theorem idx17_idx18_ix2 (r : Fin 4096) (j : Fin 16384) : idx_main_v17 (idx_main_v18 (ix2 r j)) = ix1 j :=
  funext fun a => Fin.ext (by match a with | ⟨0, _⟩ => rfl)

/-- The importance-weighted softmax entry: stage %19 at (r, j). -/
private theorem weighted_apply (r : Fin 4096) (j : Fin 16384) :
    val_main_v19 (F := Ideal) x0 x1 x2 x3 x5 (ix2 r j)
      = weightedQuot (mat x0) (vec x1) (mat x2) (vec x3) (vec x5) r j := by
  rw [val_main_v19_apply, val_main_v18_apply, val_main_v17_apply, idx17_idx18_ix2, softQuot_apply, Ideal.mulf_def]
  rfl

private theorem idx21_ix2 (r : Fin 4096) : idx_main_v21 (ix2 r (0 : Fin 1)) = ix1 r :=
  funext fun a => Fin.ext (by match a with | ⟨0, _⟩ => rfl)

private theorem idx20_ix1 (r : Fin 4096) (k : Fin 16384) : idx_main_v20 (ix1 r) k = ix2 r k :=
  funext fun a => Fin.ext (by match a with | ⟨0, _⟩ => rfl | ⟨1, _⟩ => rfl)

/-- Stage %23 on row r: the divisor of the renormalisation. -/
theorem divisor_apply (r : Fin 4096) :
    val_main_v23 (F := Ideal) x0 x1 x2 x3 x5 (ix2 r (0 : Fin 1))
      = divisor (weightedQuot (mat x0) (vec x1) (mat x2) (vec x3) (vec x5) r) := by
  rw [val_main_v23_apply, val_main_v21_apply, idx21_ix2, val_main_v20_apply, val_main_cst_2_apply, val_main_v22_apply,
    val_main_cst_3_apply, Ideal.addf_def]
  simp only [Ideal.ofBits_def]
  rw [Ideal.ofBits_zero_f32, zero_add]
  unfold divisor Spec.guard
  refine congrArg (· + Ideal.ofBits .f32 0x358637BD#32) (Finset.sum_congr rfl fun k _ => ?_)
  rw [idx20_ix1, weighted_apply]

private theorem idx24_ix2 (r : Fin 4096) (j : Fin 16384) : idx_main_v24 (ix2 r j) = ix2 r (0 : Fin 1) :=
  funext fun a => Fin.ext (by match a with | ⟨0, _⟩ => rfl | ⟨1, _⟩ => rfl)

/-- The second result (the renormalised importance weights) at (r, j). -/
theorem iw_apply (r : Fin 4096) (j : Fin 16384) :
    val_main_v25 (F := Ideal) x0 x1 x2 x3 x5 (ix2 r j) = iwQuot (mat x0) (vec x1) (mat x2) (vec x3) (vec x5) r j := by
  rw [val_main_v25_apply, val_main_v24_apply, idx24_ix2, divisor_apply, weighted_apply, Ideal.hostDivf_def]
  rfl

/-! ## The content read -/

private theorem lidx26_ix2 (r : Fin 4096) (d : Fin 64) (k : Fin 16384) : lidx_main_v26 (ix2 r d) k = ix2 r k :=
  funext fun a => Fin.ext (by match a with | ⟨0, _⟩ => rfl | ⟨1, _⟩ => rfl)

private theorem ridx26_ix2 (r : Fin 4096) (d : Fin 64) (k : Fin 16384) : ridx_main_v26 (ix2 r d) k = ix2 k d :=
  funext fun a => Fin.ext (by match a with | ⟨0, _⟩ => rfl | ⟨1, _⟩ => rfl)

/-- The first result (the content read) at (r, d). -/
theorem rc_apply (r : Fin 4096) (d : Fin 64) :
    val_main_v26 (F := Ideal) x0 x1 x2 x3 x4 x5 (ix2 r d)
      = readOut (iwQuot (mat x0) (vec x1) (mat x2) (vec x3) (vec x5)) (mat x4) r d := by
  rw [val_main_v26_apply]
  unfold readOut
  exact Finset.sum_congr rfl fun k _ => by rw [lidx26_ix2, ridx26_ix2, iw_apply]

end Cert.RefValue

end
-- ==== Proof.HostArrays.lean ====
/-
  What the region finds in each array its windows stage, read at an index, in terms of the argument arrays: the
  query, the memory and the first 512 rows of the weight matrix under a change of format (the identity on the
  extended reals), row 512 of the weight matrix as a row vector, and the integration level, bias and importance
  reshaped to a column or a row.
-/
import proofs.«172350_g58497454572246_cont_9to1c4b_647_4_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KerArrays

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The query, window 0's array. -/
theorem V_query (c : Dev nD) (r : Fin 4096) (k : Fin 512) :
    (V m c main_v0 : S4096x512.Idx → EReal) (ix2 r k) = (m ((c : Thread nD τ).loc main_arg0) : S4096x512.Idx → EReal) (ix2 r k) := by
  -- the array is the argument under the change of format, the identity on the extended reals
  have e : (V m c main_v0 : S4096x512.Idx → EReal)
      = (truncf (F := Ideal) (s := S4096x512) (φ := .f32) .bf16 (m ((c : Thread nD τ).loc main_arg0)) bitsLt_bf16_f32 :
          S4096x512.Idx → EReal) := by
    dsimp only [Gen.V, Gen.hostOps0]; after_results
  rw [e, truncf_apply]

/-- The integration level as a column, window 1's array. -/
theorem V_level (c : Dev nD) (r : Fin 4096) :
    (V m c main_v7 : S4096x1.Idx → EReal) (ix2 r (0 : Fin 1)) = (m ((c : Thread nD τ).loc main_arg1) : S4096.Idx → EReal) (ix1 r) := by
  -- the array is the argument recast from [4096] to [4096, 1]: position r * 1 + 0 = r in row-major order
  have e : (V m c main_v7 : S4096x1.Idx → EReal)
      = (shapeCast S4096x1 (m ((c : Thread nD τ).loc main_arg1) : S4096.Idx → EReal) shapeCasts_S4096_S4096x1 :
          S4096x1.Idx → EReal) := by
    dsimp only [Gen.V, Gen.hostOps0]; after_results; rfl
  rw [e]
  refine shapeCast_apply (s := S4096) (t := S4096x1) _ _ (ix2 r (0 : Fin 1)) (ix1 r) ?_
  rw [Shape.rowMajor_val_one, Shape.rowMajor_val_two]
  show r.val = r.val * 1 + 0
  omega

/-- The weight matrix's first 512 rows, window 2's array. -/
theorem V_weight (c : Dev nD) (k : Fin 512) (j : Fin 16384) :
    (V m c main_v2 : S512x16384.Idx → EReal) (ix2 k j) = (m ((c : Thread nD τ).loc main_arg2) : S513x16384.Idx → EReal) (ix2 k.castSucc j) := by
  -- the array is rows 0 … 511 of the argument (a cut along the rows from 0), then the change of format
  have e : (V m c main_v2 : S512x16384.Idx → EReal)
      = (truncf (F := Ideal) (s := S512x16384) (φ := .f32) .bf16
          (extractStridedSlice S512x16384 ![0, 0] (m ((c : Thread nD τ).loc main_arg2) : S513x16384.Idx → EReal)
            slices_S513x16384_S512x16384_0_0)
          bitsLt_bf16_f32 : S512x16384.Idx → EReal) := by
    dsimp only [Gen.V, Gen.hostOps0]; after_results
  rw [e, truncf_apply]
  exact slice2_axis0_apply 0 _ _ k j k.castSucc (by simp)

/-- The weight matrix's row 512, window 3's array. -/
theorem V_weightLast (c : Dev nD) (j : Fin 16384) :
    (V m c main_v5 : S1x16384.Idx → EReal) (ix2 (0 : Fin 1) j) = (m ((c : Thread nD τ).loc main_arg2) : S513x16384.Idx → EReal) (ix2 (Fin.last 512) j) := by
  -- the array is row 512 of the argument (a cut along the rows from 512, one row long), recast to a vector and back
  -- to a row; each recast keeps the column
  have e : (V m c main_v5 : S1x16384.Idx → EReal)
      = (shapeCast S1x16384
          (shapeCast S16384
            (extractStridedSlice S1x16384 ![512, 0] (m ((c : Thread nD τ).loc main_arg2) : S513x16384.Idx → EReal)
              slices_S513x16384_S1x16384_512_0)
            shapeCasts_S1x16384_S16384)
          shapeCasts_S16384_S1x16384 : S1x16384.Idx → EReal) := by
    dsimp only [Gen.V, Gen.hostOps0]; after_results; rfl
  rw [e, shapeCast_a_1a_apply, shapeCast_1a_a_apply]
  exact slice2_axis0_apply 512 _ _ (0 : Fin 1) j (Fin.last 512) (by simp)

/-- The bias as a row, window 4's array. -/
theorem V_bias (c : Dev nD) (j : Fin 16384) :
    (V m c main_v8 : S1x16384.Idx → EReal) (ix2 (0 : Fin 1) j) = (m ((c : Thread nD τ).loc main_arg3) : S16384.Idx → EReal) (ix1 j) := by
  -- the array is the argument recast from [16384] to [1, 16384]
  have e : (V m c main_v8 : S1x16384.Idx → EReal)
      = (shapeCast S1x16384 (m ((c : Thread nD τ).loc main_arg3) : S16384.Idx → EReal) shapeCasts_S16384_S1x16384 :
          S1x16384.Idx → EReal) := by
    dsimp only [Gen.V, Gen.hostOps0]; after_results; rfl
  rw [e]
  exact shapeCast_a_1a_apply _ _ (0 : Fin 1) j

/-- The importance as a row, window 5's array. -/
theorem V_importance (c : Dev nD) (j : Fin 16384) :
    (V m c main_v9 : S1x16384.Idx → EReal) (ix2 (0 : Fin 1) j) = (m ((c : Thread nD τ).loc main_arg5) : S16384.Idx → EReal) (ix1 j) := by
  -- the array is the argument recast from [16384] to [1, 16384]
  have e : (V m c main_v9 : S1x16384.Idx → EReal)
      = (shapeCast S1x16384 (m ((c : Thread nD τ).loc main_arg5) : S16384.Idx → EReal) shapeCasts_S16384_S1x16384 :
          S1x16384.Idx → EReal) := by
    dsimp only [Gen.V, Gen.hostOps0]; after_results; rfl
  rw [e]
  exact shapeCast_a_1a_apply _ _ (0 : Fin 1) j

/-- The memory, window 6's array. -/
theorem V_memory (c : Dev nD) (j : Fin 16384) (d : Fin 64) :
    (V m c main_v6 : S16384x64.Idx → EReal) (ix2 j d) = (m ((c : Thread nD τ).loc main_arg4) : S16384x64.Idx → EReal) (ix2 j d) := by
  -- the array is the argument under the change of format, the identity on the extended reals
  have e : (V m c main_v6 : S16384x64.Idx → EReal)
      = (truncf (F := Ideal) (s := S16384x64) (φ := .f32) .bf16 (m ((c : Thread nD τ).loc main_arg4)) bitsLt_bf16_f32 :
          S16384x64.Idx → EReal) := by
    dsimp only [Gen.V, Gen.hostOps0]; after_results
  rw [e, truncf_apply]

end Cert.KerArrays

end
-- ==== Proof.KerPayload.lean ====
/-
  The kernel body's two stored values at an index of their block, as functions of the loaded blocks: the
  renormalised importance weights in the reciprocal spelling over the split contraction, and their product with the
  memory block.

  Each stage of the body is read at an index (p, j) of its block.  The layout steps (a column spread along the lanes,
  a vector viewed as a column, a row spread over the rows) pick one entry; a lane reduction at row p is the sum, or the
  largest entry, of row p; a product onto the zero block is the sum over the one contracted coordinate.  With these
  the body is the composition  logits ↦ exponentials of the row less its maximum ↦ times the reciprocal of the row's
  sum ↦ times the importance row ↦ times the reciprocal of the row's sum plus the guard,  which is the specification's
  reciprocal spelling entry by entry.
-/
import proofs.«172350_g58497454572246_cont_9to1c4b_647_4_alg».proof.Proof.Gen.KernelIdeal.Skeleton
import proofs.«172350_g58497454572246_cont_9to1c4b_647_4_alg».proof.Proof.Spec
import Idealize.ShloMosaic.Lib.Pipeline.Value
import Idealize.ShloMosaic.Lib.ValueLayout
import Idealize.ShloMosaic.Lib.IdealHost

noncomputable section

namespace Cert.KerPayload

open Idealize.ShloMosaic Idealize.ShloMosaic.ValueIdx Cert.KernelIdeal Cert.KernelIdeal.Gen Cert.Spec

/-! ## Layout steps and lane reductions at an index -/

section Layout
variable {α : Type}

/-- A column [128,1] spread along the lanes reads, at (p, j), the column's entry of row p. -/
private theorem bcastCol_apply (x : S128x1.Idx → α) (h : S128x1.Broadcasts S128x16384) (p : Fin 128) (j : Fin 16384) :
    broadcastTo S128x16384 x h (ix2 p j) = x (ix2 p (0 : Fin 1)) := by
  refine broadcastTo_apply x h (ix2 p j) (ix2 p (0 : Fin 1)) fun a => ?_
  match a with
  | ⟨0, _⟩ => show p.val = if (128 : Nat) = 1 then 0 else p.val; rw [if_neg (by decide)]
  | ⟨1, _⟩ => show (0 : Nat) = if (1 : Nat) = 1 then 0 else j.val; rw [if_pos rfl]

/-- A vector [128] viewed as a column [128,1] reads, at (p, u), the vector's entry p. -/
private theorem castCol_apply (x : S128.Idx → α) (h : S128.ShapeCasts S128x1) (p : Fin 128) (u : Fin 1) :
    shapeCast S128x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

section Reduce

/-- The lane sum of a [128,16384] block at row p is the sum of the row. -/
private theorem rowSum_apply (src : FVec Ideal S128x16384 .f32) (h : S128x16384.Reduces [1] S128) (hφ : FKind.Formats .f32)
    (hacc : (0x00000000#32 : BitVec 32) = FKind.add.neutral .f32 hφ) (p : Fin 128) :
    multiReduction (F := Ideal) .add [1] S128 src 0x00000000#32 h hφ hacc (ix1 p) = ∑ j : Fin 16384, src (ix2 p j) := by
  refine (Ideal.multiReduction_add_single src _ h hφ hacc (ix1 p)).trans ?_
  refine Finset.sum_congr rfl fun j _ => congrArg src ?_
  funext a; refine Fin.ext ?_
  match a with
  | ⟨0, _⟩ => rfl
  | ⟨1, _⟩ => rfl

/-- The lane maximum of a [128,16384] block at row p, started from −∞, is the row's largest entry. -/
private theorem rowMax_apply (src : FVec Ideal S128x16384 .f32) (h : S128x16384.Reduces [1] S128) (hφ : FKind.Formats .f32)
    (hacc : (0xFF800000#32 : BitVec 32) = FKind.maximumf.neutral .f32 hφ) (p : Fin 128) :
    multiReduction (F := Ideal) .maximumf [1] S128 src 0xFF800000#32 h hφ hacc (ix1 p) = rowMax (fun j => src (ix2 p j)) := by
  refine (Ideal.multiReduction_maximumf_single src _ h hφ hacc (ix1 p)).trans ?_
  have hb : FloatOps.ofBits (F := Ideal) .f32 0xFF800000#32 = (⊥ : EReal) := by
    show Ideal.ofBits .f32 0xFF800000#32 = ⊥
    simp [Ideal.ofBits, Ideal.ieee]
  rw [hb]
  unfold rowMax
  refine congrArg (fun f => Finset.fold max (⊥ : EReal) f (Finset.univ : Finset (Fin 16384))) ?_
  funext j
  refine congrArg src (funext fun a => Fin.ext ?_)
  match a with
  | ⟨0, _⟩ => rfl
  | ⟨1, _⟩ => rfl

end Reduce

/-! ## The two products at an index -/

section Matmul

/-! ### The logits' product: [128,512] against [512,16384] -/

/-- The left operand's row coordinate is the result's row. -/
private theorem lhs_logit_0 (i : S128x16384.Idx) (q : dot_S128x512_S512x16384_S128x16384_1_0_0_1_n_n.contr.Idx) :
    (dot_S128x512_S512x16384_S128x16384_1_0_0_1_n_n.lhsIdx i q 0).val = (i 0).val := by
  unfold DotDims.lhsIdx
  rw [dif_neg (show ¬(0 : Fin S128x512.rank) ∈ dot_S128x512_S512x16384_S128x16384_1_0_0_1_n_n.lhsBatch by decide), dif_pos (show (0 : Fin S128x512.rank) ∈ dot_S128x512_S512x16384_S128x16384_1_0_0_1_n_n.lhsNonContracting by decide)]
  rfl
/-- The left operand's column coordinate is the contracted one. -/
private theorem lhs_logit_1 (i : S128x16384.Idx) (q : dot_S128x512_S512x16384_S128x16384_1_0_0_1_n_n.contr.Idx) :
    (dot_S128x512_S512x16384_S128x16384_1_0_0_1_n_n.lhsIdx i q 1).val = (q ⟨0, by decide⟩).val :=
  dot_S128x512_S512x16384_S128x16384_1_0_0_1_n_n.lhsIdx_val_of_single rfl i q
/-- The right operand's row coordinate is the contracted one. -/
private theorem rhs_logit_0 (i : S128x16384.Idx) (q : dot_S128x512_S512x16384_S128x16384_1_0_0_1_n_n.contr.Idx) :
    (dot_S128x512_S512x16384_S128x16384_1_0_0_1_n_n.rhsIdx i q 0).val = (q ⟨0, by decide⟩).val :=
  dot_S128x512_S512x16384_S128x16384_1_0_0_1_n_n.rhsIdx_val_of_single rfl i q
/-- The right operand's column coordinate is the result's column. -/
private theorem rhs_logit_1 (i : S128x16384.Idx) (q : dot_S128x512_S512x16384_S128x16384_1_0_0_1_n_n.contr.Idx) :
    (dot_S128x512_S512x16384_S128x16384_1_0_0_1_n_n.rhsIdx i q 1).val = (i 1).val := by
  unfold DotDims.rhsIdx
  rw [dif_neg (show ¬(1 : Fin S512x16384.rank) ∈ dot_S128x512_S512x16384_S128x16384_1_0_0_1_n_n.rhsBatch by decide), dif_pos (show (1 : Fin S512x16384.rank) ∈ dot_S128x512_S512x16384_S128x16384_1_0_0_1_n_n.rhsNonContracting by decide)]
  rfl

/-- The product onto the zero block, at (p, j): row p of the left block against column j of the right one. -/
private theorem matmulLogit_apply (lhs : FVec Ideal S128x512 .bf16) (rhs : FVec Ideal S512x16384 .bf16) (p : Fin 128) (j : Fin 16384) :
    matmul (F := Ideal) dot_S128x512_S512x16384_S128x16384_1_0_0_1_n_n none lhs rhs (constant (F := Ideal) S128x16384 .f32 0x00000000#32) (ix2 p j)
      = ∑ k : Fin 512, lhs (ix2 p k) * rhs (ix2 k j) := by
  simp only [matmul]
  rw [Ideal.matmul_constant_zero_apply, ← Equiv.sum_comp (contrEquiv1 dot_S128x512_S512x16384_S128x16384_1_0_0_1_n_n 512 rfl rfl).symm]
  refine Finset.sum_congr rfl fun k _ => ?_
  have hk := contrEquiv1_symm_val dot_S128x512_S512x16384_S128x16384_1_0_0_1_n_n 512 rfl rfl k
  have el : dot_S128x512_S512x16384_S128x16384_1_0_0_1_n_n.lhsIdx (ix2 p j) ((contrEquiv1 dot_S128x512_S512x16384_S128x16384_1_0_0_1_n_n 512 rfl rfl).symm k) = ix2 p k := funext fun a => Fin.ext (by
    match a with
    | ⟨0, _⟩ => exact lhs_logit_0 _ _
    | ⟨1, _⟩ => exact (lhs_logit_1 _ _).trans hk)
  have er : dot_S128x512_S512x16384_S128x16384_1_0_0_1_n_n.rhsIdx (ix2 p j) ((contrEquiv1 dot_S128x512_S512x16384_S128x16384_1_0_0_1_n_n 512 rfl rfl).symm k) = ix2 k j := funext fun a => Fin.ext (by
    match a with
    | ⟨0, _⟩ => exact (rhs_logit_0 _ _).trans hk
    | ⟨1, _⟩ => exact rhs_logit_1 _ _)
  rw [el, er]

end Matmul

section Matmul2

/-! ### The content read's product: [128,16384] against [16384,64] -/

/-- The left operand's row coordinate is the result's row. -/
private theorem lhs_read_0 (i : S128x64.Idx) (q : dot_S128x16384_S16384x64_S128x64_1_0_0_1_n_n.contr.Idx) :
    (dot_S128x16384_S16384x64_S128x64_1_0_0_1_n_n.lhsIdx i q 0).val = (i 0).val := by
  unfold DotDims.lhsIdx
  rw [dif_neg (show ¬(0 : Fin S128x16384.rank) ∈ dot_S128x16384_S16384x64_S128x64_1_0_0_1_n_n.lhsBatch by decide), dif_pos (show (0 : Fin S128x16384.rank) ∈ dot_S128x16384_S16384x64_S128x64_1_0_0_1_n_n.lhsNonContracting by decide)]
  rfl
/-- The left operand's column coordinate is the contracted one. -/
private theorem lhs_read_1 (i : S128x64.Idx) (q : dot_S128x16384_S16384x64_S128x64_1_0_0_1_n_n.contr.Idx) :
    (dot_S128x16384_S16384x64_S128x64_1_0_0_1_n_n.lhsIdx i q 1).val = (q ⟨0, by decide⟩).val :=
  dot_S128x16384_S16384x64_S128x64_1_0_0_1_n_n.lhsIdx_val_of_single rfl i q
/-- The right operand's row coordinate is the contracted one. -/
private theorem rhs_read_0 (i : S128x64.Idx) (q : dot_S128x16384_S16384x64_S128x64_1_0_0_1_n_n.contr.Idx) :
    (dot_S128x16384_S16384x64_S128x64_1_0_0_1_n_n.rhsIdx i q 0).val = (q ⟨0, by decide⟩).val :=
  dot_S128x16384_S16384x64_S128x64_1_0_0_1_n_n.rhsIdx_val_of_single rfl i q
/-- The right operand's column coordinate is the result's column. -/
private theorem rhs_read_1 (i : S128x64.Idx) (q : dot_S128x16384_S16384x64_S128x64_1_0_0_1_n_n.contr.Idx) :
    (dot_S128x16384_S16384x64_S128x64_1_0_0_1_n_n.rhsIdx i q 1).val = (i 1).val := by
  unfold DotDims.rhsIdx
  rw [dif_neg (show ¬(1 : Fin S16384x64.rank) ∈ dot_S128x16384_S16384x64_S128x64_1_0_0_1_n_n.rhsBatch by decide), dif_pos (show (1 : Fin S16384x64.rank) ∈ dot_S128x16384_S16384x64_S128x64_1_0_0_1_n_n.rhsNonContracting by decide)]
  rfl

/-- The product onto the zero block, at (p, d): row p of the weights against column d of the memory. -/
private theorem matmulRead_apply (lhs : FVec Ideal S128x16384 .bf16) (rhs : FVec Ideal S16384x64 .bf16) (p : Fin 128) (d : Fin 64) :
    matmul (F := Ideal) dot_S128x16384_S16384x64_S128x64_1_0_0_1_n_n none lhs rhs (constant (F := Ideal) S128x64 .f32 0x00000000#32) (ix2 p d)
      = ∑ k : Fin 16384, lhs (ix2 p k) * rhs (ix2 k d) := by
  simp only [matmul]
  rw [Ideal.matmul_constant_zero_apply, ← Equiv.sum_comp (contrEquiv1 dot_S128x16384_S16384x64_S128x64_1_0_0_1_n_n 16384 rfl rfl).symm]
  refine Finset.sum_congr rfl fun k _ => ?_
  have hk := contrEquiv1_symm_val dot_S128x16384_S16384x64_S128x64_1_0_0_1_n_n 16384 rfl rfl k
  have el : dot_S128x16384_S16384x64_S128x64_1_0_0_1_n_n.lhsIdx (ix2 p d) ((contrEquiv1 dot_S128x16384_S16384x64_S128x64_1_0_0_1_n_n 16384 rfl rfl).symm k) = ix2 p k := funext fun a => Fin.ext (by
    match a with
    | ⟨0, _⟩ => exact lhs_read_0 _ _
    | ⟨1, _⟩ => exact (lhs_read_1 _ _).trans hk)
  have er : dot_S128x16384_S16384x64_S128x64_1_0_0_1_n_n.rhsIdx (ix2 p d) ((contrEquiv1 dot_S128x16384_S16384x64_S128x64_1_0_0_1_n_n 16384 rfl rfl).symm k) = ix2 k d := funext fun a => Fin.ext (by
    match a with
    | ⟨0, _⟩ => exact (rhs_read_0 _ _).trans hk
    | ⟨1, _⟩ => exact rhs_read_1 _ _)
  rw [el, er]

end Matmul2

/-! ## The body's stages -/

section Stages

/-- The single-precision word of 1.0 is the number one. -/
private theorem one_word : (Scalar.ofBits (F := Ideal) .f32 0x3F800000#32 : Ideal .f32) = (1 : EReal) :=
  Ideal.ofBits_one_f32

/-- The block's exponentials: each entry less its row's largest entry, exponentiated. -/
private def expBlock (l : FVec Ideal S128x16384 .f32) : FVec Ideal S128x16384 .f32 :=
  exp (subf l (broadcastTo S128x16384 (shapeCast S128x1
    (multiReduction .maximumf [1] S128 l 0xFF800000#32 reduces_S128x16384_S128 (.inl rfl) rfl)
    shapeCasts_S128_S128x1) broadcasts_S128x1_S128x16384))

private theorem expBlock_apply (l : FVec Ideal S128x16384 .f32) (p : Fin 128) (j : Fin 16384) :
    expBlock l (ix2 p j) = expShift (fun j' => l (ix2 p j')) j := by
  unfold expBlock expShift
  show Ideal.exp (l (ix2 p j) - broadcastTo S128x16384 _ _ (ix2 p j)) = _
  rw [bcastCol_apply, castCol_apply]
  exact congrArg (fun m => Ideal.exp (l (ix2 p j) - m)) (rowMax_apply l _ _ _ p)

/-- The lane sums of a block, as a column. -/
private def sumCol (x : FVec Ideal S128x16384 .f32) : FVec Ideal S128x1 .f32 :=
  shapeCast S128x1 (multiReduction .add [1] S128 x 0x00000000#32 reduces_S128x16384_S128 (.inl rfl) rfl) shapeCasts_S128_S128x1

private theorem sumCol_apply (x : FVec Ideal S128x16384 .f32) (p : Fin 128) (u : Fin 1) :
    sumCol x (ix2 p u) = ∑ j : Fin 16384, x (ix2 p j) := by
  unfold sumCol
  rw [castCol_apply]
  exact rowSum_apply x _ _ _ p

/-- A block times the reciprocal of a column, the reciprocal spread along the lanes. -/
private def timesRecip (x : FVec Ideal S128x16384 .f32) (c : FVec Ideal S128x1 .f32) : FVec Ideal S128x16384 .f32 :=
  mulf x (broadcastTo S128x16384 (divf (broadcast S128x1 (Scalar.ofBits .f32 0x3F800000#32)) c) broadcasts_S128x1_S128x16384)

private theorem timesRecip_apply (x : FVec Ideal S128x16384 .f32) (c : FVec Ideal S128x1 .f32) (p : Fin 128) (j : Fin 16384) :
    timesRecip x c (ix2 p j) = x (ix2 p j) * Ideal.div 1 (c (ix2 p (0 : Fin 1))) := by
  unfold timesRecip
  show x (ix2 p j) * broadcastTo S128x16384 _ _ (ix2 p j) = _
  rw [bcastCol_apply]
  show x (ix2 p j) * Ideal.div (Scalar.ofBits (F := Ideal) .f32 0x3F800000#32) (c (ix2 p (0 : Fin 1))) = _
  rw [one_word]

end Stages

section Body

/-- The logits block as the body computes it: the product of the query block with the weight matrix, plus the
    integration level's column times the level's weight row, plus the bias row. -/
private def logitBlock (v0 : FVec Ideal S128x512 .bf16) (v2 : FVec Ideal S512x16384 .bf16) (v5 : FVec Ideal S128x1 .f32)
    (v7 v13 : FVec Ideal S1x16384 .f32) : FVec Ideal S128x16384 .f32 :=
  addf
    (addf
      (matmul dot_S128x512_S512x16384_S128x16384_1_0_0_1_n_n none (shapeCast S128x512 v0 shapeCasts_S128x512_S128x512)
        (shapeCast S512x16384 v2 shapeCasts_S512x16384_S512x16384) (constant S128x16384 .f32 0x00000000#32))
      (mulf (broadcastTo S128x16384 (shapeCast S128x1 v5 shapeCasts_S128x1_S128x1) broadcasts_S128x1_S128x16384)
        (broadcastTo S128x16384 (shapeCast S1x16384 v7 shapeCasts_S1x16384_S1x16384) broadcasts_S1x16384_S128x16384)))
    (broadcastTo S128x16384 (shapeCast S1x16384 v13 shapeCasts_S1x16384_S1x16384) broadcasts_S1x16384_S128x16384)

private theorem logitBlock_apply (v0 : FVec Ideal S128x512 .bf16) (v2 : FVec Ideal S512x16384 .bf16) (v5 : FVec Ideal S128x1 .f32)
    (v7 v13 : FVec Ideal S1x16384 .f32) (p : Fin 128) (j : Fin 16384) :
    logitBlock v0 v2 v5 v7 v13 (ix2 p j)
      = logitSplit (fun k => v0 (ix2 p k)) (v5 (ix2 p (0 : Fin 1))) (fun k j' => v2 (ix2 k j'))
          (fun j' => v7 (ix2 (0 : Fin 1) j')) (fun j' => v13 (ix2 (0 : Fin 1) j')) j := by
  unfold logitBlock logitSplit
  simp only [shapeCast_self]
  rw [addf_apply, addf_apply, mulf_apply, matmulLogit_apply, bcastCol_apply, broadcastTo_1b_ab_apply,
    broadcastTo_1b_ab_apply]

/-- The softmax block in the reciprocal spelling: the exponentials times the reciprocal of their lane sums. -/
private def softBlock (l : FVec Ideal S128x16384 .f32) : FVec Ideal S128x16384 .f32 :=
  timesRecip (expBlock l) (sumCol (expBlock l))

private theorem softBlock_apply (l : FVec Ideal S128x16384 .f32) (p : Fin 128) (j : Fin 16384) :
    softBlock l (ix2 p j) = softRecip (fun j' => l (ix2 p j')) j := by
  unfold softBlock softRecip expSum
  rw [timesRecip_apply, sumCol_apply, expBlock_apply]
  simp only [expBlock_apply]

/-- The renormalised block: a block times the reciprocal of its lane sums plus the guard. -/
private def renormBlock (w : FVec Ideal S128x16384 .f32) : FVec Ideal S128x16384 .f32 :=
  timesRecip w (addf (sumCol w) (broadcast S128x1 (Scalar.ofBits .f32 0x358637BD#32)))

private theorem renormBlock_apply (w : FVec Ideal S128x16384 .f32) (p : Fin 128) (j : Fin 16384) :
    renormBlock w (ix2 p j) = renormRecip (fun j' => w (ix2 p j')) j := by
  unfold renormBlock renormRecip divisor Spec.guard
  rw [timesRecip_apply, addf_apply, sumCol_apply]
  rfl

end Body

set_option maxRecDepth 65536 in
/-- The stored weights block is the renormalised, importance-weighted softmax of the logits block. -/
private theorem pay2_eq (v0 : Vec Ideal S128x512 .bf16) (v2 : Vec Ideal S512x16384 .bf16) (v5 : Vec Ideal S128x1 .f32)
    (v7 v13 v28 : Vec Ideal S1x16384 .f32) :
    k0_pay2 (F := Ideal) v0 v2 v5 v7 v13 v28
      = renormBlock (mulf (softBlock (logitBlock v0 v2 v5 v7 v13))
          (broadcastTo S128x16384 (shapeCast S1x16384 v28 shapeCasts_S1x16384_S1x16384) broadcasts_S1x16384_S128x16384)) :=
  rfl

/-- The weights' block at (p, j): row p of the query block, its integration level, the whole weight matrices,
    bias and importance. -/
theorem pay2_apply (v0 : Vec Ideal S128x512 .bf16) (v2 : Vec Ideal S512x16384 .bf16) (v5 : Vec Ideal S128x1 .f32)
    (v7 v13 v28 : Vec Ideal S1x16384 .f32) (p : Fin 128) (j : Fin 16384) :
    k0_pay2 (F := Ideal) v0 v2 v5 v7 v13 v28 (ix2 p j)
      = renormRecip (fun j' => softRecip (logitSplit (fun k => v0 (ix2 p k)) (v5 (ix2 p (0 : Fin 1)))
          (fun k j'' => v2 (ix2 k j'')) (fun j'' => v7 (ix2 (0 : Fin 1) j'')) (fun j'' => v13 (ix2 (0 : Fin 1) j''))) j'
            * v28 (ix2 (0 : Fin 1) j')) j := by
  rw [pay2_eq, renormBlock_apply]
  refine congrArg (fun w => renormRecip w j) (funext fun j' => ?_)
  rw [mulf_apply, softBlock_apply, shapeCast_self, broadcastTo_1b_ab_apply]
  simp only [logitBlock_apply]

/-- The content block at (p, d): row p of the weights' block against column d of the memory. -/
theorem pay1_apply (v39 : FVec Ideal S128x16384 .f32) (v42 : Vec Ideal S16384x64 .bf16) (p : Fin 128) (d : Fin 64) :
    k0_pay1 (F := Ideal) v39 v42 (ix2 p d) = ∑ j : Fin 16384, v39 (ix2 p j) * v42 (ix2 j d) := by
  unfold k0_pay1
  rw [shapeCast_self]
  exact matmulRead_apply (truncf .bf16 v39 bitsLt_bf16_f32) v42 p d

end Cert.KerPayload

end
-- ==== Proof.KerValue.lean ====
/-
  The idealized kernel's two result arrays after its run, as whole-array functions of the argument arrays: grid point t
  computes rows 128 t … 128 t + 127 of both results from rows 128 t … of the query and the integration level and from
  the whole of the other operands, so the 32 points' blocks tile the results and each entry is the reciprocal spelling
  of the specification over the split contraction.
-/
import proofs.«172350_g58497454572246_cont_9to1c4b_647_4_alg».proof.Proof.Gen.KernelIdeal.Value
import proofs.«172350_g58497454572246_cont_9to1c4b_647_4_alg».proof.Proof.HostArrays
import proofs.«172350_g58497454572246_cont_9to1c4b_647_4_alg».proof.Proof.KerPayload
import proofs.«172350_g58497454572246_cont_9to1c4b_647_4_alg».proof.Proof.Spec

noncomputable section

namespace Cert.KerValue

open Idealize.ShloMosaic Idealize.ShloMosaic.ValueIdx Idealize.ShloMosaic.TcCoe Idealize.SL.Sem
open Cert.KernelIdeal Cert.KernelIdeal.Gen Cert.Spec
open Idealize.ShloMosaic.Pipeline (Dat)

variable (m : (ℓ : Loc nD τ sig) → Buf (Elt Ideal) ℓ) (ρ : Dev nD → PrngReg)

/-- The renormalised importance weights as the kernel computes them, from the argument arrays on core c. -/
def iwOf (c : Dev nD) : Fin 4096 → Fin 16384 → EReal :=
  iwRecip (mat (m ((c : Thread nD τ).loc main_arg0) : S4096x512.Idx → EReal))
    (vec (m ((c : Thread nD τ).loc main_arg1) : S4096.Idx → EReal))
    (fun k j => mat (m ((c : Thread nD τ).loc main_arg2) : S513x16384.Idx → EReal) k.castSucc j)
    (fun j => mat (m ((c : Thread nD τ).loc main_arg2) : S513x16384.Idx → EReal) (Fin.last 512) j)
    (vec (m ((c : Thread nD τ).loc main_arg3) : S16384.Idx → EReal))
    (vec (m ((c : Thread nD τ).loc main_arg5) : S16384.Idx → EReal))

/-- The second result array (window 8). -/
def iwArr (c : Dev nD) : S4096x16384.Idx → EReal := fun i => iwOf m c (i 0) (i 1)

/-- The first result array (window 7). -/
def rcArr (c : Dev nD) : S4096x64.Idx → EReal :=
  fun i => readOut (iwOf m c) (mat (m ((c : Thread nD τ).loc main_arg4) : S16384x64.Idx → EReal)) (i 0) (i 1)

/-! ## The index maps -/

/-- The query, the integration level and both results move one block of 128 rows per grid point. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The weight matrix, its last row, the bias, the importance and the memory are read whole at every grid point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The input blocks at a coordinate -/

/-- Rows 128 t … 128 t + 127 of the query. -/
abbrev queryBlk (c : Dev nD) (t : Fin cfg0.N) : Vec Ideal S128x512 .bf16 := iblk m c 0 t
/-- Rows 128 t … 128 t + 127 of the integration level, as a column. -/
abbrev levelBlk (c : Dev nD) (t : Fin cfg0.N) : Vec Ideal S128x1 .f32 := iblk m c 1 t
/-- The first 512 rows of the weight matrix. -/
abbrev weightBlk (c : Dev nD) (t : Fin cfg0.N) : Vec Ideal S512x16384 .bf16 := iblk m c 2 t
/-- Row 512 of the weight matrix. -/
abbrev weightLastBlk (c : Dev nD) (t : Fin cfg0.N) : Vec Ideal S1x16384 .f32 := iblk m c 3 t
/-- The bias as a row. -/
abbrev biasBlk (c : Dev nD) (t : Fin cfg0.N) : Vec Ideal S1x16384 .f32 := iblk m c 4 t
/-- The importance as a row. -/
abbrev importanceBlk (c : Dev nD) (t : Fin cfg0.N) : Vec Ideal S1x16384 .f32 := iblk m c 5 t
/-- The memory matrix. -/
abbrev memoryBlk (c : Dev nD) (t : Fin cfg0.N) : Vec Ideal S16384x64 .bf16 := iblk m c 6 t

theorem queryBlk_apply (c : Dev nD) (t : Fin cfg0.N) (p : Fin 128) (k : Fin 512) (r : Fin 4096)
    (hr : r.val = 128 * t.val + p.val) :
    queryBlk m c t (ix2 p k) = (m ((c : Thread nD τ).loc main_arg0) : S4096x512.Idx → EReal) (ix2 r k) := by
  rw [← Cert.KerArrays.V_query m c r k]
  show V m c main_v0 (((cfg0.win 0).blk t).view.emb (ix2 p k)) = V m c main_v0 (ix2 r k)
  obtain ⟨e0, e1, -⟩ := idx_rows t
  congr 1
  funext a; apply Fin.ext
  match a with
  | ⟨0, _⟩ => show win0_0.index t (0 : Fin 2) * 128 + 1 * p.val = r.val; omega
  | ⟨1, _⟩ => show win0_0.index t (1 : Fin 2) * 512 + 1 * k.val = k.val; omega

theorem levelBlk_apply (c : Dev nD) (t : Fin cfg0.N) (p : Fin 128) (r : Fin 4096)
    (hr : r.val = 128 * t.val + p.val) :
    levelBlk m c t (ix2 p (0 : Fin 1)) = (m ((c : Thread nD τ).loc main_arg1) : S4096.Idx → EReal) (ix1 r) := by
  rw [← Cert.KerArrays.V_level m c r]
  show V m c main_v7 (((cfg0.win 1).blk t).view.emb (ix2 p (0 : Fin 1))) = V m c main_v7 (ix2 r (0 : Fin 1))
  obtain ⟨-, -, e0, e1, -⟩ := idx_rows t
  congr 1
  funext a; apply Fin.ext
  match a with
  | ⟨0, _⟩ => show win0_1.index t (0 : Fin 2) * 128 + 1 * p.val = r.val; omega
  | ⟨1, _⟩ => show win0_1.index t (1 : Fin 2) * 1 + 1 * 0 = 0; omega

theorem weightBlk_apply (c : Dev nD) (t : Fin cfg0.N) (k : Fin 512) (j : Fin 16384) :
    weightBlk m c t (ix2 k j) = (m ((c : Thread nD τ).loc main_arg2) : S513x16384.Idx → EReal) (ix2 k.castSucc j) := by
  rw [← Cert.KerArrays.V_weight m c k j]
  show V m c main_v2 (((cfg0.win 2).blk t).view.emb (ix2 k j)) = V m c main_v2 (ix2 k j)
  obtain ⟨e0, e1, -⟩ := idx_whole t
  congr 1
  funext a; apply Fin.ext
  match a with
  | ⟨0, _⟩ => show win0_2.index t (0 : Fin 2) * 512 + 1 * k.val = k.val; omega
  | ⟨1, _⟩ => show win0_2.index t (1 : Fin 2) * 16384 + 1 * j.val = j.val; omega

theorem weightLastBlk_apply (c : Dev nD) (t : Fin cfg0.N) (j : Fin 16384) :
    weightLastBlk m c t (ix2 (0 : Fin 1) j)
      = (m ((c : Thread nD τ).loc main_arg2) : S513x16384.Idx → EReal) (ix2 (Fin.last 512) j) := by
  rw [← Cert.KerArrays.V_weightLast m c j]
  show V m c main_v5 (((cfg0.win 3).blk t).view.emb (ix2 (0 : Fin 1) j)) = V m c main_v5 (ix2 (0 : Fin 1) j)
  obtain ⟨-, -, e0, e1, -⟩ := idx_whole t
  congr 1
  funext a; apply Fin.ext
  match a with
  | ⟨0, _⟩ => show win0_3.index t (0 : Fin 2) * 1 + 1 * 0 = 0; omega
  | ⟨1, _⟩ => show win0_3.index t (1 : Fin 2) * 16384 + 1 * j.val = j.val; omega

theorem biasBlk_apply (c : Dev nD) (t : Fin cfg0.N) (j : Fin 16384) :
    biasBlk m c t (ix2 (0 : Fin 1) j) = (m ((c : Thread nD τ).loc main_arg3) : S16384.Idx → EReal) (ix1 j) := by
  rw [← Cert.KerArrays.V_bias m c j]
  show V m c main_v8 (((cfg0.win 4).blk t).view.emb (ix2 (0 : Fin 1) j)) = V m c main_v8 (ix2 (0 : Fin 1) j)
  obtain ⟨-, -, -, -, e0, e1, -⟩ := idx_whole t
  congr 1
  funext a; apply Fin.ext
  match a with
  | ⟨0, _⟩ => show win0_4.index t (0 : Fin 2) * 1 + 1 * 0 = 0; omega
  | ⟨1, _⟩ => show win0_4.index t (1 : Fin 2) * 16384 + 1 * j.val = j.val; omega

theorem importanceBlk_apply (c : Dev nD) (t : Fin cfg0.N) (j : Fin 16384) :
    importanceBlk m c t (ix2 (0 : Fin 1) j) = (m ((c : Thread nD τ).loc main_arg5) : S16384.Idx → EReal) (ix1 j) := by
  rw [← Cert.KerArrays.V_importance m c j]
  show V m c main_v9 (((cfg0.win 5).blk t).view.emb (ix2 (0 : Fin 1) j)) = V m c main_v9 (ix2 (0 : Fin 1) j)
  obtain ⟨-, -, -, -, -, -, e0, e1, -⟩ := idx_whole t
  congr 1
  funext a; apply Fin.ext
  match a with
  | ⟨0, _⟩ => show win0_5.index t (0 : Fin 2) * 1 + 1 * 0 = 0; omega
  | ⟨1, _⟩ => show win0_5.index t (1 : Fin 2) * 16384 + 1 * j.val = j.val; omega

theorem memoryBlk_apply (c : Dev nD) (t : Fin cfg0.N) (j : Fin 16384) (d : Fin 64) :
    memoryBlk m c t (ix2 j d) = (m ((c : Thread nD τ).loc main_arg4) : S16384x64.Idx → EReal) (ix2 j d) := by
  rw [← Cert.KerArrays.V_memory m c j d]
  show V m c main_v6 (((cfg0.win 6).blk t).view.emb (ix2 j d)) = V m c main_v6 (ix2 j d)
  obtain ⟨-, -, -, -, -, -, -, -, e0, e1⟩ := idx_whole t
  congr 1
  funext a; apply Fin.ext
  match a with
  | ⟨0, _⟩ => show win0_6.index t (0 : Fin 2) * 16384 + 1 * j.val = j.val; omega
  | ⟨1, _⟩ => show win0_6.index t (1 : Fin 2) * 64 + 1 * d.val = d.val; omega

/-! ## What a grid point writes back -/

theorem zero_offsets : (![0, 0] : Fin 2 → Nat) = fun _ => 0 := funext fun a => by fin_cases a <;> rfl

/-- A grid point's 128 rows lie inside the 4096. -/
theorem row_lt (t : Fin cfg0.N) (p : Fin 128) : 128 * t.val + p.val < 4096 := by
  have hN : cfg0.N = 32 := N_0
  have ht := t.isLt
  have hp := p.isLt
  omega

/-- The row of the arrays that row p of grid point t's blocks is. -/
def rowOf (t : Fin cfg0.N) (p : Fin 128) : Fin 4096 := ⟨128 * t.val + p.val, row_lt t p⟩

/-- The weights' block, over blocks that hold row r of the query and of the integration level in their row p and the
    whole of the other operands, is row r of the specification's weights. -/
theorem weights_block (v0 : Vec Ideal S128x512 .bf16) (v2 : Vec Ideal S512x16384 .bf16) (v5 : Vec Ideal S128x1 .f32)
    (v7 v13 v28 : Vec Ideal S1x16384 .f32)
    (q : Fin 4096 → Fin 512 → EReal) (il : Fin 4096 → EReal) (Wq : Fin 512 → Fin 16384 → EReal)
    (wl b imp : Fin 16384 → EReal) (p : Fin 128) (r : Fin 4096)
    (h0 : ∀ k, v0 (ix2 p k) = q r k) (h5 : v5 (ix2 p (0 : Fin 1)) = il r)
    (h2 : ∀ k j, v2 (ix2 k j) = Wq k j) (h7 : ∀ j, v7 (ix2 (0 : Fin 1) j) = wl j)
    (h13 : ∀ j, v13 (ix2 (0 : Fin 1) j) = b j) (h28 : ∀ j, v28 (ix2 (0 : Fin 1) j) = imp j) (j : Fin 16384) :
    k0_pay2 (F := Ideal) v0 v2 v5 v7 v13 v28 (ix2 p j) = iwRecip q il Wq wl b imp r j := by
  have e0 : (fun k => v0 (ix2 p k)) = q r := funext h0
  have e2 : (fun k j'' => v2 (ix2 k j'')) = Wq := funext fun k => funext fun j'' => h2 k j''
  have e7 : (fun j'' => v7 (ix2 (0 : Fin 1) j'')) = wl := funext h7
  have e13 : (fun j'' => v13 (ix2 (0 : Fin 1) j'')) = b := funext h13
  have e28 : (fun j' => v28 (ix2 (0 : Fin 1) j')) = imp := funext h28
  rw [Cert.KerPayload.pay2_apply, e0, h5, e2, e7, e13]
  unfold iwRecip
  congr 1
  funext j'
  rw [h28]

/-- The content block, over a weights' block that holds row r of the weights in its row p and the whole memory, is
    row r of the content read. -/
theorem content_block (v39 : FVec Ideal S128x16384 .f32) (v42 : Vec Ideal S16384x64 .bf16)
    (iw : Fin 4096 → Fin 16384 → EReal) (mem : Fin 16384 → Fin 64 → EReal) (p : Fin 128) (r : Fin 4096)
    (h39 : ∀ j, v39 (ix2 p j) = iw r j) (h42 : ∀ j d, v42 (ix2 j d) = mem j d) (d : Fin 64) :
    k0_pay1 (F := Ideal) v39 v42 (ix2 p d) = readOut iw mem r d := by
  rw [Cert.KerPayload.pay1_apply]
  unfold readOut
  exact Finset.sum_congr rfl fun j _ => by rw [h39, h42]

/-- The weights' block of grid point t, over the point's input blocks, at (p, j): row 128 t + p of the weights. -/
theorem weights_at (c : Dev nD) (t : Fin cfg0.N) (p : Fin 128) (j : Fin 16384) :
    k0_pay2 (F := Ideal) (queryBlk m c t) (weightBlk m c t) (levelBlk m c t) (weightLastBlk m c t) (biasBlk m c t)
        (importanceBlk m c t) (ix2 p j) = iwOf m c (rowOf t p) j :=
  weights_block _ _ _ _ _ _ _ _ _ _ _ _ p (rowOf t p)
    (fun k => queryBlk_apply m c t p k (rowOf t p) rfl) (levelBlk_apply m c t p (rowOf t p) rfl)
    (fun k j' => weightBlk_apply m c t k j') (fun j' => weightLastBlk_apply m c t j')
    (fun j' => biasBlk_apply m c t j') (fun j' => importanceBlk_apply m c t j') j

/-- A block of the weights' array read through its window is the array at the block's embedded coordinates. -/
theorem read_blk8 (G : S4096x16384.Idx → EReal) (t : Fin cfg0.N) :
    ((cfg0.win 8).blk t).view.read (Elt Ideal) G = fun y => G (((cfg0.win 8).blk t).view.emb y) := rfl

/-- A block of the content array read through its window is the array at the block's embedded coordinates. -/
theorem read_blk7 (G : S4096x64.Idx → EReal) (t : Fin cfg0.N) :
    ((cfg0.win 7).blk t).view.read (Elt Ideal) G = fun y => G (((cfg0.win 7).blk t).view.emb y) := rfl

/-- Grid point t writes back block t of the weights. -/
theorem flushed8_eq (c : Dev nD) (t : Fin cfg0.N) :
    (dats m 0 c).flushed 8 t = ((cfg0.win 8).blk t).view.read (Elt Ideal) (iwArr m c) := by
  rw [Value.flushed8, read_blk8]
  unfold Gen.out0_8
  rw [View.canon_unit_zero zero_offsets]
  simp only [View.ld_unit_zero (S := S128x512) zero_offsets, View.ld_unit_zero (S := S512x16384) zero_offsets,
    View.ld_unit_zero (S := S128x1) zero_offsets, View.ld_unit_zero (S := S1x16384) zero_offsets]
  funext y
  obtain ⟨p, j, rfl⟩ : ∃ (p : Fin 128) (j : Fin 16384), y = ix2 p j := ⟨y 0, y 1, eq_ix2 y⟩
  have he : ((cfg0.win 8).blk t).view.emb (ix2 p j) = (ix2 (rowOf t p) j : S4096x16384.Idx) := by
    obtain ⟨-, -, -, -, -, -, e0, e1⟩ := idx_rows t
    funext a; apply Fin.ext
    match a with
    | ⟨0, _⟩ => show win0_8.index t (0 : Fin 2) * 128 + 1 * p.val = 128 * t.val + p.val; omega
    | ⟨1, _⟩ => show win0_8.index t (1 : Fin 2) * 16384 + 1 * j.val = j.val; omega
  rw [he]
  exact weights_at m c t p j

/-- Grid point t writes back block t of the content read. -/
theorem flushed7_eq (c : Dev nD) (t : Fin cfg0.N) :
    (dats m 0 c).flushed 7 t = ((cfg0.win 7).blk t).view.read (Elt Ideal) (rcArr m c) := by
  rw [Value.flushed7, read_blk7]
  unfold Gen.out0_7
  rw [View.canon_unit_zero zero_offsets]
  simp only [View.ld_unit_zero (S := S128x512) zero_offsets, View.ld_unit_zero (S := S512x16384) zero_offsets,
    View.ld_unit_zero (S := S128x1) zero_offsets, View.ld_unit_zero (S := S1x16384) zero_offsets,
    View.ld_unit_zero (S := S16384x64) zero_offsets]
  funext y
  obtain ⟨p, d, rfl⟩ : ∃ (p : Fin 128) (d : Fin 64), y = ix2 p d := ⟨y 0, y 1, eq_ix2 y⟩
  have he : ((cfg0.win 7).blk t).view.emb (ix2 p d) = (ix2 (rowOf t p) d : S4096x64.Idx) := by
    obtain ⟨-, -, -, -, e0, e1, -⟩ := idx_rows t
    funext a; apply Fin.ext
    match a with
    | ⟨0, _⟩ => show win0_7.index t (0 : Fin 2) * 128 + 1 * p.val = 128 * t.val + p.val; omega
    | ⟨1, _⟩ => show win0_7.index t (1 : Fin 2) * 64 + 1 * d.val = d.val; omega
  rw [he]
  exact content_block _ _ _ _ p (rowOf t p) (fun j => weights_at m c t p j)
    (fun j d' => memoryBlk_apply m c t j d') d

/-! ## The blocks tile the results -/

/-- An index of the weights' array is in grid point t's block iff each coordinate is in the block's range. -/
theorem mem_blk8 (t : Fin cfg0.N) (i : S4096x16384.Idx) :
    i ∈ ((cfg0.win 8).blk t).view.set ↔ ∀ a : Fin 2, win0_8.index t a * S128x16384.size a ≤ (i a).val
      ∧ (i a).val < win0_8.index t a * S128x16384.size a + S128x16384.size a := by
  show i ∈ ((View.whole main_v10_1).slice (win0_8.rect t)).set ↔ _
  rw [View.set_slice_whole, Rect.mem_set_unit]
  exact Iff.rfl

/-- An index of the content array is in grid point t's block iff each coordinate is in the block's range. -/
theorem mem_blk7 (t : Fin cfg0.N) (i : S4096x64.Idx) :
    i ∈ ((cfg0.win 7).blk t).view.set ↔ ∀ a : Fin 2, win0_7.index t a * S128x64.size a ≤ (i a).val
      ∧ (i a).val < win0_7.index t a * S128x64.size a + S128x64.size a := by
  show i ∈ ((View.whole main_v10_0).slice (win0_7.rect t)).set ↔ _
  rw [View.set_slice_whole, Rect.mem_set_unit]
  exact Iff.rfl

/-- Row r of the weights lies in the block of grid point r / 128. -/
theorem cover8 (i : S4096x16384.Idx) :
    ∃ t : Fin cfg0.N, (cfg0.win 8).flush t = true ∧ i ∈ ((cfg0.win 8).blk t).view.set := by
  have hN : cfg0.N = 32 := N_0
  have h0 : (i 0).val < 4096 := idx2_lt0 i
  have h1 : (i 1).val < 16384 := idx2_lt1 i
  obtain ⟨t, ht⟩ : ∃ t : Fin cfg0.N, t.val = (i 0).val / 128 := ⟨⟨(i 0).val / 128, by omega⟩, rfl⟩
  refine ⟨t, flush0_8 t, ?_⟩
  rw [mem_blk8]
  obtain ⟨-, -, -, -, -, -, e0, e1⟩ := idx_rows t
  intro a
  match a with
  | ⟨0, _⟩ =>
    show win0_8.index t (0 : Fin 2) * 128 ≤ (i 0).val ∧ (i 0).val < win0_8.index t (0 : Fin 2) * 128 + 128
    omega
  | ⟨1, _⟩ =>
    show win0_8.index t (1 : Fin 2) * 16384 ≤ (i 1).val ∧ (i 1).val < win0_8.index t (1 : Fin 2) * 16384 + 16384
    omega

/-- Row r of the content read lies in the block of grid point r / 128. -/
theorem cover7 (i : S4096x64.Idx) :
    ∃ t : Fin cfg0.N, (cfg0.win 7).flush t = true ∧ i ∈ ((cfg0.win 7).blk t).view.set := by
  have hN : cfg0.N = 32 := N_0
  have h0 : (i 0).val < 4096 := idx2_lt0 i
  have h1 : (i 1).val < 64 := idx2_lt1 i
  obtain ⟨t, ht⟩ : ∃ t : Fin cfg0.N, t.val = (i 0).val / 128 := ⟨⟨(i 0).val / 128, by omega⟩, rfl⟩
  refine ⟨t, flush0_7 t, ?_⟩
  rw [mem_blk7]
  obtain ⟨-, -, -, -, e0, e1, -⟩ := idx_rows t
  intro a
  match a with
  | ⟨0, _⟩ =>
    show win0_7.index t (0 : Fin 2) * 128 ≤ (i 0).val ∧ (i 0).val < win0_7.index t (0 : Fin 2) * 128 + 128
    omega
  | ⟨1, _⟩ =>
    show win0_7.index t (1 : Fin 2) * 64 ≤ (i 1).val ∧ (i 1).val < win0_7.index t (1 : Fin 2) * 64 + 64
    omega

/-! ## The arrays after the run -/

/-- The second result array ends holding the weights. -/
theorem final8 (c : Dev nD) : (dats m 0 c).arrAt 8 cfg0.N = iwArr m c :=
  (dats m 0 c).arrAt_eq_of_cover 8 (iwArr m c) (fun t _ => flushed8_eq m c t) cover8

/-- The first result array ends holding the content read. -/
theorem final7 (c : Dev nD) : (dats m 0 c).arrAt 7 cfg0.N = rcArr m c :=
  (dats m 0 c).arrAt_eq_of_cover 7 (rcArr m c) (fun t _ => flushed7_eq m c t) cover7

/-- The kernel's run with both result arrays named as functions of the arguments, the arguments unchanged. -/
theorem run : θ_run defs (onTc (τ := τ) (main (F := Ideal))) ⟨m, fun _ => 0, ρ⟩ fun r => ∀ c : Dev nD,
      r.2.mem ((c : Thread nD τ).loc main_v10_0) = rcArr m c
      ∧ r.2.mem ((c : Thread nD τ).loc main_v10_1) = iwArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2.1.trans (final8 m c), (h c).2.2⟩)
    (Value.run_blocks m ρ)

end Cert.KerValue

end
-- ==== Proof.lean ====
/-
  The fused priority-memory read against its jnp reference, on the extended reals.

  Both programs compute, for each of the 4096 rows, the logits l j = (Σ_k x_k · W k j) + b j over the query row with
  the integration level joined as coordinate 512, the row's softmax, the softmax weighted by the importance vector,
  that weighted row renormalised by its own sum plus a small guard, and the renormalised row times the memory matrix.
  They differ in three spellings: the kernel contracts over the 512 query coordinates and adds the integration
  level's term apart, where the reference contracts once over the 513 joined coordinates; and the kernel multiplies
  by the reciprocal of each of the two divisors, where the reference divides.  The first is a sum split at its last
  term.  The other two hold off a zero divisor: the softmax's divisor is a sum of exponentials of real numbers one of
  which is exp 0, so it is never zero on finite inputs; the renormalisation's divisor can be zero for real importance
  values, and there the reference itself divides by zero, so the precondition says it is not.

  The three frames are the generated ones (the reference's is its generated run with the results dropped), the
  idealization rewrote nothing, and the value claim sets the kernel's run, its two results named as whole-array
  functions of the arguments, beside the reference's run.
-/
import proofs.«172350_g58497454572246_cont_9to1c4b_647_4_alg».proof.Defs
import proofs.«172350_g58497454572246_cont_9to1c4b_647_4_alg».proof.Proof.Gen.Kernel
import proofs.«172350_g58497454572246_cont_9to1c4b_647_4_alg».proof.Proof.Gen.Kernel.Skeleton
import proofs.«172350_g58497454572246_cont_9to1c4b_647_4_alg».proof.Proof.Gen.Kernel.Launch
import proofs.«172350_g58497454572246_cont_9to1c4b_647_4_alg».proof.Proof.Gen.Kernel.Points
import proofs.«172350_g58497454572246_cont_9to1c4b_647_4_alg».proof.Proof.Gen.Kernel.Frame
import proofs.«172350_g58497454572246_cont_9to1c4b_647_4_alg».proof.Proof.Gen.KernelIdeal
import proofs.«172350_g58497454572246_cont_9to1c4b_647_4_alg».proof.Proof.Gen.KernelIdeal.Skeleton
import proofs.«172350_g58497454572246_cont_9to1c4b_647_4_alg».proof.Proof.Gen.KernelIdeal.Launch
import proofs.«172350_g58497454572246_cont_9to1c4b_647_4_alg».proof.Proof.Gen.KernelIdeal.Points
import proofs.«172350_g58497454572246_cont_9to1c4b_647_4_alg».proof.Proof.Gen.KernelIdeal.Frame
import proofs.«172350_g58497454572246_cont_9to1c4b_647_4_alg».proof.Proof.Gen.ReferenceIdeal
import proofs.«172350_g58497454572246_cont_9to1c4b_647_4_alg».proof.Proof.Gen.Pre_finite_inputs
import proofs.«172350_g58497454572246_cont_9to1c4b_647_4_alg».proof.Proof.Gen.KernelIdeal.Value
import proofs.«172350_g58497454572246_cont_9to1c4b_647_4_alg».proof.Proof.Gen.ReferenceIdeal.Run
import proofs.«172350_g58497454572246_cont_9to1c4b_647_4_alg».proof.Proof.Gen.ReferenceIdeal.Read
import proofs.«172350_g58497454572246_cont_9to1c4b_647_4_alg».proof.Proof.Spec
import proofs.«172350_g58497454572246_cont_9to1c4b_647_4_alg».proof.Proof.PreFacts
import proofs.«172350_g58497454572246_cont_9to1c4b_647_4_alg».proof.Proof.RefValue
import proofs.«172350_g58497454572246_cont_9to1c4b_647_4_alg».proof.Proof.KerValue
import Idealize.ShloMosaic.Adequacy
import Idealize.ShloMosaic.Init

noncomputable section

namespace Cert.Proof

open Idealize.ShloMosaic Idealize.ShloMosaic.ValueIdx Idealize.ShloMosaic.TcCoe Idealize.SL.Sem

/-! ## The two results are one pair of functions of the arguments -/

section Results

open Cert.KernelIdeal Cert.Spec

variable (m : (ℓ : Loc nD τ sig) → Buf (Elt Ideal) ℓ)

/-- On argument arrays of which the precondition holds, the reference's two result terms are the kernel's two result
    arrays: the reference's stages are the quotient spelling over the joined contraction, the kernel's arrays the
    reciprocal spelling over the split one, and the two spellings agree on real inputs whose renormalisation divisors
    are not zero, which is what the precondition says. -/
theorem results_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    Cert.ReferenceIdeal.Read.val_main_v26 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) = Cert.KerValue.rcArr m c
      ∧ Cert.ReferenceIdeal.Read.val_main_v25 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg5)) = Cert.KerValue.iwArr m c := by
  obtain ⟨h0, h1, h2, h3, _, _, hd⟩ := Cert.PreFacts.of_pre _ _ _ _ _ _ hpre
  have hiw : Cert.KerValue.iwOf m c
      = iwQuot (mat (m ((c.tc : Thread nD τ).loc main_arg0) : S4096x512.Idx → EReal))
          (vec (m ((c.tc : Thread nD τ).loc main_arg1) : S4096.Idx → EReal))
          (mat (m ((c.tc : Thread nD τ).loc main_arg2) : S513x16384.Idx → EReal))
          (vec (m ((c.tc : Thread nD τ).loc main_arg3) : S16384.Idx → EReal))
          (vec (m ((c.tc : Thread nD τ).loc main_arg5) : S16384.Idx → EReal)) := by
    unfold Cert.KerValue.iwOf
    refine iwRecip_eq_iwQuot _ _ _ _ _ (fun r k => h0 _) (fun r => h1 _) (fun k j => h2 _) (fun j => h3 _) (fun r => ?_)
    rw [← Cert.RefValue.divisor_apply]
    exact hd _
  constructor
  · funext i
    obtain ⟨r, d, rfl⟩ : ∃ (r : Fin 4096) (d : Fin 64), i = ix2 r d := ⟨i 0, i 1, eq_ix2 i⟩
    rw [Cert.RefValue.rc_apply]
    unfold Cert.KerValue.rcArr
    rw [hiw]
  · funext i
    obtain ⟨r, j, rfl⟩ : ∃ (r : Fin 4096) (j : Fin 16384), i = ix2 r j := ⟨i 0, i 1, eq_ix2 i⟩
    rw [Cert.RefValue.iw_apply]
    unfold Cert.KerValue.iwArr
    rw [hiw]

end Results

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two arrays: the kernel's named results,
    which the reference's result terms equal under the precondition. -/
theorem algebraic : Cert.algebraic_KernelIdeal_ReferenceIdeal := by
  intro m ρ m' ρ' hpre hagree
  refine ⟨fun c => Cert.KerValue.rcArr m c, fun c => Cert.KerValue.iwArr m c, Cert.KerValue.run m ρ, ?_⟩
  refine (θ_run Cert.ReferenceIdeal.defs _ _).mono (fun _ h c => ?_) (Cert.ReferenceIdeal.Value.run (F := Ideal) m' ρ')
  obtain ⟨e0, e1, e2, e3, e4, e5⟩ := hagree c
  obtain ⟨hrc, hiw⟩ := results_eq m c (hpre c)
  refine ⟨(h c).1.trans ?_, (h c).2.1.trans ?_, (h c).2.2⟩
  · rw [Cert.ReferenceIdeal.Read.val_main_v26_eq, e0, e1, e2, e3, e4, e5]
    exact hrc
  · rw [Cert.ReferenceIdeal.Read.val_main_v25_eq, e0, e1, e2, e3, e5]
    exact hiw

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
